-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x3 : Shape := ⟨2, ![1600000, 3]⟩
abbrev S1600000 : Shape := ⟨1, ![1600000]⟩
abbrev S512x64 : Shape := ⟨2, ![512, 64]⟩
abbrev S64x64 : Shape := ⟨2, ![64, 64]⟩
abbrev S64 : Shape := ⟨1, ![64]⟩
abbrev S_ : Shape := ⟨0, ![]⟩
abbrev S1600000x1 : Shape := ⟨2, ![1600000, 1]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S1600000x3_S1600000x1_0_0 : S1600000x3.Slices ![0, 0] S1600000x1
  shapeCasts_S1600000x1_S1600000 : S1600000x1.ShapeCasts S1600000
  slices_S1600000x3_S1600000x1_0_2 : S1600000x3.Slices ![0, 2] S1600000x1

variable [Facts]

def fn_part2 {F : FTy → Type} [FloatOps F] (main_arg2 : IVec S1600000x3 32) (main_v28 : IVec S_ 1) (main_v33 : IVec S_ 1) : IVec S_ 1 :=
  let main_v34 : IVec S_ 1 := andi main_v28 main_v33
  let main_v35 : IVec S1600000x1 32 := (extractStridedSlice S1600000x1 ![0, 2] · slices_S1600000x3_S1600000x1_0_2) main_arg2
  let main_v36 : IVec S1600000 32 := shapeCast S1600000 main_v35 shapeCasts_S1600000x1_S1600000
  let main_c_12 : IVec S_ 32 := constantI S_ 32 0#32
  let main_v37 : IVec S1600000 32 := broadcastInDim S1600000 ![] bcast_S_S1600000 main_c_12
  let main_v38 : IVec S1600000 1 := cmpi .sge main_v36 main_v37
  let main_c_13 : IVec S_ 1 := constantI S_ 1 1#1
  let main_v39 : IVec S_ 1 := (fun x v => Host.reduce IntOp.andi x v reducesTo_S1600000_S_d0 h_S_) main_v38 main_c_13
  let main_v40 : IVec S_ 1 := andi main_v34 main_v39
  main_v40

def fn_part1 {F : FTy → Type} [FloatOps F] (main_arg2 : IVec S1600000x3 32) (main_arg5 : FVec F S64x64 .f32) (main_arg6 : FVec F S64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : IVec S1600000x1 32 := (extractStridedSlice S1600000x1 ![0, 0] · slices_S1600000x3_S1600000x1_0_0) main_arg2
  let main_v30 : IVec S1600000 32 := shapeCast S1600000 main_v29 shapeCasts_S1600000x1_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_c_11 : IVec S_ 1 := constantI S_ 1 1#1
  let main_v33 : IVec S_ 1 := (fun x v => Host.reduce IntOp.andi x v reducesTo_S1600000_S_d0 h_S_) main_v32 main_c_11
  fn_part2 (F := F) main_arg2 main_v28 main_v33

def fn {F : FTy → Type} [FloatOps F] (main_arg0 : FVec F S50000x64 .f32) (main_arg1 : FVec F S50000x64 .f32) (main_arg2 : IVec S1600000x3 32) (main_arg3 : FVec F S1600000 .f32) (main_arg4 : FVec F S512x64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S1600000 .f32 := Host.absf main_arg3
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S512x64 .f32 := Host.absf main_arg4
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg2 main_arg5 main_arg6 main_v13 main_v16
-- ==== Kernel.lean ====
abbrev S50000x64 : Shape := ⟨2, ![50000, 64]⟩
abbrev S1600000x3 : Shape := ⟨2, ![1600000, 3]⟩
abbrev S1600000 : Shape := ⟨1, ![1600000]⟩
abbrev S512x64 : Shape := ⟨2, ![512, 64]⟩
abbrev S64x64 : Shape := ⟨2, ![64, 64]⟩
abbrev S64 : Shape := ⟨1, ![64]⟩
abbrev S1600000x1 : Shape := ⟨2, ![1600000, 1]⟩
abbrev S1600000x64 : Shape := ⟨2, ![1600000, 64]⟩
abbrev S1600000x128 : Shape := ⟨2, ![1600000, 128]⟩
abbrev S6400x64 : Shape := ⟨2, ![6400, 64]⟩
abbrev S6400x128 : Shape := ⟨2, ![6400, 128]⟩
abbrev S_ : Shape := ⟨0, ![]⟩
abbrev S50000x128 : Shape := ⟨2, ![50000, 128]⟩
abbrev S50000 : Shape := ⟨1, ![50000]⟩
abbrev S50000x1 : Shape := ⟨2, ![50000, 1]⟩
abbrev S1x64 : Shape := ⟨2, ![1, 64]⟩
abbrev S2000x128 : Shape := ⟨2, ![2000, 128]⟩
abbrev S2000x64 : Shape := ⟨2, ![2000, 64]⟩
abbrev S2000x1 : Shape := ⟨2, ![2000, 1]⟩

abbrev nBuf : Space → Nat
  | .hbm => 34
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S1600000x3, .i32⟩
  | .hbm, ⟨3, _⟩ => ⟨S1600000, .f32⟩
  | .hbm, ⟨4, _⟩ => ⟨S512x64, .f32⟩
  | .hbm, ⟨5, _⟩ => ⟨S64x64, .f32⟩
  | .hbm, ⟨6, _⟩ => ⟨S64, .f32⟩
  | .hbm, ⟨7, _⟩ => ⟨S1600000x1, .i32⟩
  | .hbm, ⟨8, _⟩ => ⟨S1600000, .i32⟩
  | .hbm, ⟨9, _⟩ => ⟨S1600000x1, .i32⟩
  | .hbm, ⟨10, _⟩ => ⟨S1600000, .i32⟩
  | .hbm, ⟨11, _⟩ => ⟨S1600000x1, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .i32⟩
  | .hbm, ⟨16, _⟩ => ⟨S1600000x64, .f32⟩
  | .hbm, ⟨17, _⟩ => ⟨S1600000x1, .f32⟩
  | .hbm, ⟨18, _⟩ => ⟨S1600000x64, .f32⟩
  | .hbm, ⟨19, _⟩ => ⟨S1600000x64, .f32⟩
  | .hbm, ⟨20, _⟩ => ⟨S1600000x128, .f32⟩
  | .hbm, ⟨21, _⟩ => ⟨S_, .f32⟩
  | .hbm, ⟨22, _⟩ => ⟨S50000x128, .f32⟩
  | .hbm, ⟨23, _⟩ => ⟨S1600000x1, .i32⟩
  | .hbm, ⟨24, _⟩ => ⟨S50000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S50000, .f32⟩
  | .hbm, ⟨29, _⟩ => ⟨S1600000x1, .i32⟩
  | .hbm, ⟨30, _⟩ => ⟨S50000, .f32⟩
  | .hbm, ⟨31, _⟩ => ⟨S50000x1, .f32⟩
  | .hbm, ⟨32, _⟩ => ⟨S1x64, .f32⟩
  | .hbm, ⟨33, _⟩ => ⟨S50000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x128, .f32⟩
  | .local _ .vmem, ⟨5, _⟩ => ⟨S6400x128, .f32⟩
  | .local _ .vmem, ⟨6, _⟩ => ⟨S2000x128, .f32⟩
  | .local _ .vmem, ⟨7, _⟩ => ⟨S2000x128, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S64x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_v0 : Ref sig .tc := ⟨.hbm, 13, rfl⟩
abbrev main_v6 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S1600000x3_S1600000x1_0_0 : S1600000x3.Slices ![0, 0] S1600000x1
  shapeCasts_S1600000x1_S1600000 : S1600000x1.ShapeCasts S1600000
  slices_S1600000x3_S1600000x1_0_1 : S1600000x3.Slices ![0, 1] S1600000x1
  slices_S1600000x3_S1600000x1_0_2 : S1600000x3.Slices ![0, 2] S1600000x1
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  concatenates_S6400x64_S6400x64_S6400x128_d1 : Shape.Concatenates [S6400x64, S6400x64] S6400x128 1
  inb_S6400x128_S6400x128_0_0 : ∀ a, (![0, 0] : Fin 2 → Nat) a + S6400x128.size a ≤ S6400x128.size a
  h_S6400x128 : 0 < S6400x128.numel
  bcast_S_S50000x128 : S_.BroadcastsInDim S50000x128 (![] : Fin 0 → Fin S50000x128.rank)
  bcast_S_S1600000 : S_.BroadcastsInDim S1600000 (![] : Fin 0 → Fin S1600000.rank)
  bcast_S_S50000 : S_.BroadcastsInDim S50000 (![] : Fin 0 → Fin S50000.rank)
  shapeCasts_S50000_S50000x1 : S50000.ShapeCasts S50000x1
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  slices_S2000x128_o0_0_S2000x64 : S2000x128.Slices ![0, 0] S2000x64
  slices_S2000x128_o0_64_S2000x64 : S2000x128.Slices ![0, 64] S2000x64
  inb_S2000x64_S2000x64_0_0 : ∀ a, (![0, 0] : Fin 2 → Nat) a + S2000x64.size a ≤ S2000x64.size a
  h_S2000x64 : 0 < S2000x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S50000x64_S1600000x1_S1600000x64_1_0_n_n_0_1_164_wf : GatherDims.WF S50000x64 S1600000x1 S1600000x64 [1] [0] [] [0] [] 1 ![1, 64]
  gather_S512x64_S1600000x1_S1600000x64_1_0_n_n_0_1_164_wf : GatherDims.WF S512x64 S1600000x1 S1600000x64 [1] [0] [] [0] [] 1 ![1, 64]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S1600000x128.size a
  hwx0_2 : ∀ i : grid0.Coords, EltTy.bits .f32 = 32 ∨ (Rect.block (s := S1600000x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def gather_S512x64_S1600000x1_S1600000x64_1_0_n_n_0_1_164 : GatherDims S512x64 S1600000x1 S1600000x64 where
  offsetDims := [1]
  collapsedSliceDims := [0]
  operandBatchingDims := []
  startIndicesBatchingDims := []
  startIndexMap := [0]
  indexVectorDim := 1
  sliceSizes := ![1, 64]
  wf := gather_S512x64_S1600000x1_S1600000x64_1_0_n_n_0_1_164_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S1600000x3 : Shape := ⟨2, ![1600000, 3]⟩
abbrev S1600000 : Shape := ⟨1, ![1600000]⟩
abbrev S512x64 : Shape := ⟨2, ![512, 64]⟩
abbrev S64x64 : Shape := ⟨2, ![64, 64]⟩
abbrev S64 : Shape := ⟨1, ![64]⟩
abbrev S1600000x1 : Shape := ⟨2, ![1600000, 1]⟩
abbrev S_ : Shape := ⟨0, ![]⟩
abbrev S1600000x64 : Shape := ⟨2, ![1600000, 64]⟩
abbrev S50000 : Shape := ⟨1, ![50000]⟩
abbrev S50000x1 : Shape := ⟨2, ![50000, 1]⟩
abbrev S1x64 : Shape := ⟨2, ![1, 64]⟩

abbrev nBuf : Space → Nat
  | .hbm => 73
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S1600000x3, .i32⟩
  | .hbm, ⟨3, _⟩ => ⟨S1600000, .f32⟩
  | .hbm, ⟨4, _⟩ => ⟨S512x64, .f32⟩
  | .hbm, ⟨5, _⟩ => ⟨S64x64, .f32⟩
  | .hbm, ⟨6, _⟩ => ⟨S64, .f32⟩
  | .hbm, ⟨7, _⟩ => ⟨S1600000x1, .i32⟩
  | .hbm, ⟨8, _⟩ => ⟨S1600000, .i32⟩
  | .hbm, ⟨9, _⟩ => ⟨S1600000x1, .i32⟩
  | .hbm, ⟨10, _⟩ => ⟨S1600000, .i32⟩
  | .hbm, ⟨11, _⟩ => ⟨S1600000x1, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S1600000x64, .f32⟩
  | .hbm, ⟨32, _⟩ => ⟨S1600000x1, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S50000x64, .f32⟩
  | .hbm, ⟨37, _⟩ => ⟨S1600000x1, .i32⟩
  | .hbm, ⟨38, _⟩ => ⟨S50000x64, .f32⟩
  | .hbm, ⟨39, _⟩ => ⟨S50000x64, .f32⟩
  | .hbm, ⟨40, _⟩ => ⟨S1600000x64, .f32⟩
  | .hbm, ⟨41, _⟩ => ⟨S_, .f32⟩
  | .hbm, ⟨42, _⟩ => ⟨S50000x64, .f32⟩
  | .hbm, ⟨43, _⟩ => ⟨S1600000x1, .i32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S1600000, .f32⟩
  | .hbm, ⟨49, _⟩ => ⟨S_, .f32⟩
  | .hbm, ⟨50, _⟩ => ⟨S50000, .f32⟩
  | .hbm, ⟨51, _⟩ => ⟨S1600000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S_, .f32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S64x64, .f32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  slices_S1600000x3_S1600000x1_0_0 : S1600000x3.Slices ![0, 0] S1600000x1
  shapeCasts_S1600000x1_S1600000 : S1600000x1.ShapeCasts S1600000
  slices_S1600000x3_S1600000x1_0_1 : S1600000x3.Slices ![0, 1] S1600000x1
  slices_S1600000x3_S1600000x1_0_2 : S1600000x3.Slices ![0, 2] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  gather_S512x64_S1600000x1_S1600000x64_1_0_n_n_0_1_164_wf : GatherDims.WF S512x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def gather_S512x64_S1600000x1_S1600000x64_1_0_n_n_0_1_164 : GatherDims S512x64 S1600000x1 S1600000x64 where
  offsetDims := [1]
  collapsedSliceDims := [0]
  operandBatchingDims := []
  startIndicesBatchingDims := []
  startIndexMap := [0]
  indexVectorDim := 1
  sliceSizes := ![1, 64]
  wf := gather_S512x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.HostK.lean ====
/-
  The host operations around the two kernel regions, read back to the argument arrays.

  Before the first region the program slices the three columns of the edge list, gathers the source rows and the
  relation rows, and scales the source rows by the edge weights; between the regions it scatter-adds the first
  region's output by the target column into zeros, scatter-adds ones by the same column (the degrees) and
  reshapes the degrees to a column and the bias to a row.  Each buffer a region reads is therefore a fixed
  function of the argument arrays (and, for the scattered sums, of the first region's output array).
-/
import proofs.«419630_j63290638074667_3_alg».proof.Proof.Gen.KernelIdeal.Frame
import Idealize.ShloMosaic.Lib.StableHlo.Run

set_option maxRecDepth 16384

noncomputable section

namespace Cert.KernelIdeal.HostK

open Cert.KernelIdeal Cert.KernelIdeal.Gen Idealize.ShloMosaic Idealize.ShloMosaic.TcCoe Idealize.SL.Sem
open Idealize.ShloMosaic.StableHlo

variable {F : FTy → Type} [FloatOps F]

/-! ## The program's primitive terms, as functions of the argument arrays -/

/-- Column `0` of the edge list (the source node of each edge) as an `[E, 1]` index column. -/
def inCol (x2 : IVec S1600000x3 32) : IVec S1600000x1 32 :=
  broadcastInDim S1600000x1 ![0] bcast_S1600000_S1600000x1_0
    (shapeCast S1600000 (extractStridedSlice S1600000x1 ![0, 0] x2 slices_S1600000x3_S1600000x1_0_0) shapeCasts_S1600000x1_S1600000)
/-- Column `1` (the target node) as an index column. -/
def outCol (x2 : IVec S1600000x3 32) : IVec S1600000x1 32 :=
  broadcastInDim S1600000x1 ![0] bcast_S1600000_S1600000x1_0
    (shapeCast S1600000 (extractStridedSlice S1600000x1 ![0, 1] x2 slices_S1600000x3_S1600000x1_0_1) shapeCasts_S1600000x1_S1600000)
/-- Column `2` (the relation) as an index column. -/
def relCol (x2 : IVec S1600000x3 32) : IVec S1600000x1 32 :=
  broadcastInDim S1600000x1 ![0] bcast_S1600000_S1600000x1_0
    (shapeCast S1600000 (extractStridedSlice S1600000x1 ![0, 2] x2 slices_S1600000x3_S1600000x1_0_2) shapeCasts_S1600000x1_S1600000)
/-- The gathered source rows. -/
def gA (x0 : FVec F S50000x64 .f32) (x2 : IVec S1600000x3 32) : FVec F S1600000x64 .f32 :=
  Host.gather gather_S50000x64_S1600000x1_S1600000x64_1_0_n_n_0_1_164 x0 (inCol x2)
/-- The gathered relation rows. -/
def gR (x4 : FVec F S512x64 .f32) (x2 : IVec S1600000x3 32) : FVec F S1600000x64 .f32 :=
  Host.gather gather_S512x64_S1600000x1_S1600000x64_1_0_n_n_0_1_164 x4 (relCol x2)
/-- The gathered source rows, each scaled by its edge's weight. -/
def aScaled (x0 : FVec F S50000x64 .f32) (x2 : IVec S1600000x3 32) (x3 : FVec F S1600000 .f32) : FVec F S1600000x64 .f32 :=
  mulf (gA x0 x2) (broadcastInDim S1600000x64 ![0, 1] bcast_S1600000x1_S1600000x64_0_1
    (broadcastInDim S1600000x1 ![0] bcast_S1600000_S1600000x1_0 x3))
/-- The degrees: ones scatter-added by the target column into zeros. -/
def degK (x2 : IVec S1600000x3 32) : FVec F S50000 .f32 :=
  Host.scatterAdd scatter_S50000_S1600000x1_S1600000_n_0_0_1
    (broadcastInDim S50000 ![] bcast_S_S50000 (constant S_ .f32 0x00000000#32)) (outCol x2)
    (broadcastInDim S1600000 ![] bcast_S_S1600000 (constant S_ .f32 0x3F800000#32))
/-- The scattered sums: an `[E, 128]` array scatter-added by the target column into zeros. -/
def ssOf (x2 : IVec S1600000x3 32) (u : FVec F S1600000x128 .f32) : FVec F S50000x128 .f32 :=
  Host.scatterAdd scatter_S50000x128_S1600000x1_S1600000x128_1_0_0_1
    (broadcastInDim S50000x128 ![] bcast_S_S50000x128 (constant S_ .f32 0x00000000#32)) (outCol x2) u

variable (m : (ℓ : Loc nD τ sig) → Buf (Elt F) ℓ) (ρ : Dev nD → PrngReg)

/-- The argument arrays of core `c` at launch. -/
abbrev a0 (c : Dev nD) : FVec F S50000x64 .f32 := m ((c : Thread nD τ).loc main_arg0)
abbrev a1 (c : Dev nD) : FVec F S50000x64 .f32 := m ((c : Thread nD τ).loc main_arg1)
abbrev a2 (c : Dev nD) : IVec S1600000x3 32 := m ((c : Thread nD τ).loc main_arg2)
abbrev a3 (c : Dev nD) : FVec F S1600000 .f32 := m ((c : Thread nD τ).loc main_arg3)
abbrev a4 (c : Dev nD) : FVec F S512x64 .f32 := m ((c : Thread nD τ).loc main_arg4)
abbrev a5 (c : Dev nD) : FVec F S64x64 .f32 := m ((c : Thread nD τ).loc main_arg5)
abbrev a6 (c : Dev nD) : FVec F S64 .f32 := m ((c : Thread nD τ).loc main_arg6)

/-! ## What the first region finds -/

/-- Its first input is the scaled source rows. -/
theorem entry0_a (c : Dev nD) : (V4 m ρ c main_v10 : FVec F S1600000x64 .f32) = aScaled (a0 m c) (a2 m c) (a3 m c) := by
  show StableHlo.after hostOps0_3 (StableHlo.after hostOps0_2 (StableHlo.after hostOps0_1 (StableHlo.after hostOps0 (W0 m ρ c))))
    (Proc.devRef .tc main_v10) = _
  dsimp only [hostOps0, hostOps0_1, hostOps0_2, hostOps0_3]
  after_results
  rfl

/-- Its second input is the gathered relation rows. -/
theorem entry0_r (c : Dev nD) : (V4 m ρ c main_v7 : FVec F S1600000x64 .f32) = gR (a4 m c) (a2 m c) := by
  show StableHlo.after hostOps0_3 (StableHlo.after hostOps0_2 (StableHlo.after hostOps0_1 (StableHlo.after hostOps0 (W0 m ρ c))))
    (Proc.devRef .tc main_v7) = _
  dsimp only [hostOps0, hostOps0_1, hostOps0_2, hostOps0_3]
  after_results
  rfl

/-! ## What the second region finds -/

/-- The target ids, a vector over the edges, are untouched by the first region and by the operations before it. -/
theorem W5_v3 (c : Dev nD) : (W5 m ρ c (Proc.devRef .tc main_v3) : IVec S1600000 32)
    = shapeCast S1600000 (extractStridedSlice S1600000x1 ![0, 1] (a2 m c) slices_S1600000x3_S1600000x1_0_1) shapeCasts_S1600000x1_S1600000 := by
  rw [W5_of_ne m ρ c main_v3 (by decide)]
  show StableHlo.after hostOps0_3 (StableHlo.after hostOps0_2 (StableHlo.after hostOps0_1 (StableHlo.after hostOps0 (W0 m ρ c))))
    (Proc.devRef .tc main_v3) = _
  dsimp only [hostOps0, hostOps0_1, hostOps0_2, hostOps0_3]
  after_results
  rfl

/-- An argument array is as launched when the second stretch of host operations starts. -/
theorem W5_arg1 (c : Dev nD) : (W5 m ρ c (Proc.devRef .tc main_arg1) : FVec F S50000x64 .f32) = a1 m c := by
  rw [W5_of_ne m ρ c main_arg1 (by decide)]
  show StableHlo.after hostOps0_3 (StableHlo.after hostOps0_2 (StableHlo.after hostOps0_1 (StableHlo.after hostOps0 (W0 m ρ c))))
    (Proc.devRef .tc main_arg1) = _
  dsimp only [hostOps0, hostOps0_1, hostOps0_2, hostOps0_3]
  after_results
theorem W5_arg5 (c : Dev nD) : (W5 m ρ c (Proc.devRef .tc main_arg5) : FVec F S64x64 .f32) = a5 m c := by
  rw [W5_of_ne m ρ c main_arg5 (by decide)]
  show StableHlo.after hostOps0_3 (StableHlo.after hostOps0_2 (StableHlo.after hostOps0_1 (StableHlo.after hostOps0 (W0 m ρ c))))
    (Proc.devRef .tc main_arg5) = _
  dsimp only [hostOps0, hostOps0_1, hostOps0_2, hostOps0_3]
  after_results
theorem W5_arg6 (c : Dev nD) : (W5 m ρ c (Proc.devRef .tc main_arg6) : FVec F S64 .f32) = a6 m c := by
  rw [W5_of_ne m ρ c main_arg6 (by decide)]
  show StableHlo.after hostOps0_3 (StableHlo.after hostOps0_2 (StableHlo.after hostOps0_1 (StableHlo.after hostOps0 (W0 m ρ c))))
    (Proc.devRef .tc main_arg6) = _
  dsimp only [hostOps0, hostOps0_1, hostOps0_2, hostOps0_3]
  after_results

/-- The first region's output array, at its literal type. -/
abbrev comboArr (c : Dev nD) : FVec F S1600000x128 .f32 := (dat0 (V4 m ρ) c).arrAt 2 cfg0.N

/-- Its first input is the first region's output scatter-added by the target column into zeros. -/
theorem entry1_ss (c : Dev nD) : (V6 m ρ c main_v14 : FVec F S50000x128 .f32) = ssOf (a2 m c) (comboArr m ρ c) := by
  show StableHlo.after hostOps1 (W5 m ρ c) (Proc.devRef .tc main_v14) = _
  dsimp only [hostOps1]
  after_results
  rw [W5_v3 m ρ c, show W5 m ρ c (Proc.devRef .tc main_v11) = (dat0 (V4 m ρ) c).arrAt 2 cfg0.N from W5_arr m ρ c 2]
  rfl

/-- Its third input is the degrees as a column. -/
theorem entry1_deg (c : Dev nD) : (V6 m ρ c main_v19 : FVec F S50000x1 .f32)
    = shapeCast S50000x1 (degK (F := F) (a2 m c)) shapeCasts_S50000_S50000x1 := by
  show StableHlo.after hostOps1 (W5 m ρ c) (Proc.devRef .tc main_v19) = _
  dsimp only [hostOps1]
  after_results
  rw [W5_v3 m ρ c]
  rfl

/-- Its fifth input is the bias as a row. -/
theorem entry1_b (c : Dev nD) : (V6 m ρ c main_v20 : FVec F S1x64 .f32) = shapeCast S1x64 (a6 m c) shapeCasts_S64_S1x64 := by
  show StableHlo.after hostOps1 (W5 m ρ c) (Proc.devRef .tc main_v20) = _
  dsimp only [hostOps1]
  after_results
  rw [W5_arg6 m ρ c]
  rfl

/-- Its second input is the boundary, its fourth the weight matrix, both as launched. -/
theorem entry1_bnd (c : Dev nD) : (V6 m ρ c main_arg1 : FVec F S50000x64 .f32) = a1 m c := by
  show StableHlo.after hostOps1 (W5 m ρ c) (Proc.devRef .tc main_arg1) = _
  dsimp only [hostOps1]
  after_results
  exact W5_arg1 m ρ c
theorem entry1_w (c : Dev nD) : (V6 m ρ c main_arg5 : FVec F S64x64 .f32) = a5 m c := by
  show StableHlo.after hostOps1 (W5 m ρ c) (Proc.devRef .tc main_arg5) = _
  dsimp only [hostOps1]
  after_results
  exact W5_arg5 m ρ c

/-- The result buffer ends at the second region's output array. -/
theorem result_eq (c : Dev nD) : W7 m ρ c (Proc.devRef .tc main_v21) = (dat1 (V6 m ρ) c).arrAt 5 cfg1.N :=
  W7_arr m ρ c 5

end Cert.KernelIdeal.HostK

end
-- ==== Proof.Spec.lean ====
/-
  The specification both programs are read against, over the extended reals.

  For an edge `e` with source `i(e)`, target `o(e)`, relation `r(e)` and weight `w(e)`, the message is the
  row product `x[i(e), k] · rel[r(e), k] · w(e)`.  A node `n` collects, feature by feature, the sum of the
  messages of the edges that point at it and the sum of their squares; with the boundary row as one more
  message and `deg(n) + 1` as the count, the update is `sqrt (max ε (E[m²] − E[m]²))`, and the result is the
  update times the transposed weight matrix plus the bias.

  Nothing here mentions a program: the gathered rows `gA`, `gR`, the target column `io` and the degree
  array `dg` are parameters.
-/
import Idealize.ShloMosaic.PureOps.Ideal
import Idealize.ShloMosaic.Lib.ValueIdx

noncomputable section

namespace Cert.Spec

open Idealize.ShloMosaic Idealize.ShloMosaic.ValueIdx

/-- A function of two coordinates as an array of rank two. -/
def arr2 {a b : Nat} (f : Fin a → Fin b → EReal) : (⟨2, ![a, b]⟩ : Shape).Idx → EReal := fun i => f (i 0) (i 1)

theorem arr2_ix2 {a b : Nat} (f : Fin a → Fin b → EReal) (p : Fin a) (q : Fin b) : arr2 f (ix2 p q) = f p q := rfl

/-- The message of edge `e` at feature `k`: gathered source row times gathered relation row times the edge's weight. -/
def msg (gA gR : (⟨2, ![1600000, 64]⟩ : Shape).Idx → EReal) (ew : (⟨1, ![1600000]⟩ : Shape).Idx → EReal)
    (e : Fin 1600000) (k : Fin 64) : EReal :=
  gA (ix2 e k) * gR (ix2 e k) * ew (ix1 e)

/-- What the first kernel writes at edge `e`, lane `q`: the product of its two inputs in lanes 0 to 63, the
    square of that product in lanes 64 to 127. -/
def combo (a r : (⟨2, ![1600000, 64]⟩ : Shape).Idx → EReal) (e : Fin 1600000) (q : Fin 128) : EReal :=
  if h : q.val < 64 then a (ix2 e ⟨q.val, h⟩) * r (ix2 e ⟨q.val, h⟩)
  else (a (ix2 e ⟨q.val - 64, by have := q.isLt; omega⟩) * r (ix2 e ⟨q.val - 64, by have := q.isLt; omega⟩))
    * (a (ix2 e ⟨q.val - 64, by have := q.isLt; omega⟩) * r (ix2 e ⟨q.val - 64, by have := q.isLt; omega⟩))

/-- The sum of `u` over the edges whose target, read signed off the index column, is node `n`. -/
def rowSum (io : (⟨2, ![1600000, 1]⟩ : Shape).Idx → BitVec 32) (u : Fin 1600000 → EReal) (n : Fin 50000) : EReal :=
  ∑ e ∈ Finset.univ.filter (fun e : Fin 1600000 => (io (ix2 e 0)).toInt = (n.val : Int)), u e

/-- The node update at `(n, k)`: the square root of the variance of the messages, floored at `ε`. -/
def upd (s1 s2 bnd : Fin 50000 → Fin 64 → EReal) (deg1 : Fin 50000 → EReal) (n : Fin 50000) (k : Fin 64) : EReal :=
  Ideal.sqrt (max (Ideal.ofBits .f32 0x358637BD#32)
    (Ideal.div (s2 n k + bnd n k * bnd n k) (deg1 n)
      - Ideal.div (s1 n k + bnd n k) (deg1 n) * Ideal.div (s1 n k + bnd n k) (deg1 n)))

/-- The result at `(n, j)`: row `n` of the update against row `j` of the weight matrix, plus the bias. -/
def final (s1 s2 bnd : Fin 50000 → Fin 64 → EReal) (deg1 : Fin 50000 → EReal) (W : Fin 64 → Fin 64 → EReal)
    (b : Fin 64 → EReal) (n : Fin 50000) (j : Fin 64) : EReal :=
  (∑ k : Fin 64, upd s1 s2 bnd deg1 n k * W j k) + b j

/-- The whole result array from the gathered rows, the weights, the target column, the boundary, the degrees,
    the weight matrix and the bias. -/
def out (gA gR : (⟨2, ![1600000, 64]⟩ : Shape).Idx → EReal) (ew : (⟨1, ![1600000]⟩ : Shape).Idx → EReal)
    (io : (⟨2, ![1600000, 1]⟩ : Shape).Idx → BitVec 32) (bnd : (⟨2, ![50000, 64]⟩ : Shape).Idx → EReal)
    (dg : (⟨1, ![50000]⟩ : Shape).Idx → EReal) (W : (⟨2, ![64, 64]⟩ : Shape).Idx → EReal)
    (b : (⟨1, ![64]⟩ : Shape).Idx → EReal) : (⟨2, ![50000, 64]⟩ : Shape).Idx → EReal :=
  arr2 (final
    (fun n k => Ideal.ofBits .f32 0x00000000#32 + rowSum io (fun e => msg gA gR ew e k) n)
    (fun n k => Ideal.ofBits .f32 0x00000000#32 + rowSum io (fun e => msg gA gR ew e k * msg gA gR ew e k) n)
    (fun n k => bnd (ix2 n k))
    (fun n => dg (ix1 n) + Ideal.ofBits .f32 0x3F800000#32)
    (fun j k => W (ix2 j k))
    (fun j => b (ix1 j)))

end Cert.Spec

end
-- ==== Proof.Region0.lean ====
/-
  The first kernel's output array after its region, index by index.

  Each of the 250 grid points loads a 6400-row block of the two inputs, multiplies them, and stores the product
  beside its square as one 6400 × 128 block; block `t` covers rows `6400 t … 6400 t + 6399`, so the blocks tile
  the array and element `(e, q)` of the output is the product at `(e, q)` for `q < 64` and the square of the
  product at `(e, q − 64)` otherwise.
-/
import proofs.«419630_j63290638074667_3_alg».proof.Proof.Gen.KernelIdeal.Frame
import proofs.«419630_j63290638074667_3_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-- The two input arrays as the region finds them, and the output array after it, each at its literal type. -/
abbrev aArr (c : Dev nD) : S1600000x64.Idx → EReal := V c main_v10
abbrev rArr (c : Dev nD) : S1600000x64.Idx → EReal := V c main_v7
abbrev outArr (c : Dev nD) : S1600000x128.Idx → EReal := (dat0 (F := Ideal) V c).arrAt 2 cfg0.N

/-! ## One block's arithmetic, at a row `p` and a lane `q` of the block -/

/-- The zero offsets of a whole-block load or store, as the constant function. -/
theorem zero_offsets : (![0, 0] : Fin 2 → Nat) = fun _ => 0 := funext fun a => by fin_cases a <;> rfl

/-- In a lane `q` of the left half (`k = q`) the stored value is the product of the two loaded blocks at `(p, k)`:
    the concatenation along the lane axis reads its first piece there. -/
theorem payload_left (x0 x1 : Vec Ideal S6400x64 .f32) (p : Fin 6400) (q : Fin 128) (k : Fin 64) (hk : k.val = q.val) :
    k0_pay1 (F := Ideal) x0 x1 (ix2 p q) = x0 (ix2 p k) * x1 (ix2 p k) := by
  unfold k0_pay1
  rw [shapeCast_self, shapeCast_self]
  refine (concatenate_pair_apply_left (t := S6400x128) (s₁ := S6400x64) (s₂ := S6400x64) (1 : Fin 2) _ _
    concatenates_S6400x64_S6400x64_S6400x128_d1 (ix2 p q) rfl (ix2 p k) ?_).trans ?_
  · intro b; match b with | ⟨0, _⟩ => rfl | ⟨1, _⟩ => exact hk
  · rfl

/-- In a lane `q` of the right half (`k + 64 = q`) it is the square of that product at `(p, k)`: the concatenation
    reads its second piece, the lane shifted back by the first piece's 64 lanes. -/
theorem payload_right (x0 x1 : Vec Ideal S6400x64 .f32) (p : Fin 6400) (q : Fin 128) (k : Fin 64) (hk : k.val + 64 = q.val) :
    k0_pay1 (F := Ideal) x0 x1 (ix2 p q)
      = (x0 (ix2 p k) * x1 (ix2 p k)) * (x0 (ix2 p k) * x1 (ix2 p k)) := by
  unfold k0_pay1
  rw [shapeCast_self, shapeCast_self]
  refine (concatenate_pair_apply_right (t := S6400x128) (s₁ := S6400x64) (s₂ := S6400x64) (1 : Fin 2) _ _
    concatenates_S6400x64_S6400x64_S6400x128_d1 (ix2 p q) rfl rfl (ix2 p k) ?_ ?_).trans ?_
  · intro b hb; match b with | ⟨0, _⟩ => rfl | ⟨1, _⟩ => exact absurd rfl hb
  · exact hk
  · rfl

/-! ## Where a block sits in its array -/

/-- At grid point `t` every window's block index is `(t, 0)`: checked once over the 250 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of the first input's block at point `t` is row `e = 6400 t + p` of the first input array. -/
theorem block_a (c : Dev nD) (t : Fin cfg0.N) (p : Fin 6400) (k : Fin 64) (e : Fin 1600000)
    (he : e.val = 6400 * t.val + p.val) :
    (iblk0 V c 0 t : Vec Ideal S6400x64 .f32) (ix2 p k) = aArr V c (ix2 e k) := by
  obtain ⟨e0, e1, -, -, -, -⟩ := block_index t
  unfold iblk0
  rw [View.read_apply]
  show V c main_v10 (((cfg0.win 0).blk t).view.emb (ix2 p k)) = V c main_v10 (ix2 e k)
  congr 1
  funext a
  apply Fin.ext
  match a with
  | ⟨0, _⟩ => show win0_0.index t (0 : Fin 2) * 6400 + 1 * p.val = e.val; omega
  | ⟨1, _⟩ => show win0_0.index t (1 : Fin 2) * 64 + 1 * k.val = k.val; omega

/-- Row `p` of the second input's block at point `t` is row `e = 6400 t + p` of the second input array. -/
theorem block_r (c : Dev nD) (t : Fin cfg0.N) (p : Fin 6400) (k : Fin 64) (e : Fin 1600000)
    (he : e.val = 6400 * t.val + p.val) :
    (iblk0 V c 1 t : Vec Ideal S6400x64 .f32) (ix2 p k) = rArr V c (ix2 e k) := by
  obtain ⟨-, -, e0, e1, -, -⟩ := block_index t
  unfold iblk0
  rw [View.read_apply]
  show V c main_v7 (((cfg0.win 1).blk t).view.emb (ix2 p k)) = V c main_v7 (ix2 e k)
  congr 1
  funext a
  apply Fin.ext
  match a with
  | ⟨0, _⟩ => show win0_1.index t (0 : Fin 2) * 6400 + 1 * p.val = e.val; omega
  | ⟨1, _⟩ => show win0_1.index t (1 : Fin 2) * 64 + 1 * k.val = k.val; omega

/-- Element `(p, q)` of the output's block at point `t` is element `(6400 t + p, q)` of the output array. -/
theorem block_out (t : Fin cfg0.N) (p : Fin 6400) (q : Fin 128) (e : Fin 1600000)
    (he : e.val = 6400 * t.val + p.val) :
    (((cfg0.win 2).blk t).view.emb (ix2 p q) : S1600000x128.Idx) = ix2 e q := by
  obtain ⟨-, -, -, -, e0, e1⟩ := block_index t
  funext a
  apply Fin.ext
  match a with
  | ⟨0, _⟩ => show win0_2.index t (0 : Fin 2) * 6400 + 1 * p.val = e.val; omega
  | ⟨1, _⟩ => show win0_2.index t (1 : Fin 2) * 128 + 1 * q.val = q.val; omega

/-! ## The whole array -/

/-- What the output array ends holding, as one function of the two input arrays. -/
abbrev whole (c : Dev nD) : S1600000x128.Idx → EReal := Cert.Spec.arr2 (Cert.Spec.combo (aArr V c) (rArr V c))

/-- What point `t` writes back is block `t` of `whole`. -/
theorem written_back (c : Dev nD) (t : Fin cfg0.N) :
    (dat0 (F := Ideal) V c).flushed 2 t = ((cfg0.win 2).blk t).view.read (Elt Ideal) (whole V c) := by
  have hN : cfg0.N = 250 := N_0
  have ht : t.val < 250 := hN ▸ t.isLt
  show (cfg0.win 2).cut (grid0.coords t) ((dat0 (F := Ideal) V c).after 2 t) = _
  rw [after0_2]
  unfold out0_2
  rw [View.canon_unit_zero zero_offsets]
  simp only [View.ld_unit_zero (S := S6400x64) zero_offsets]
  funext j
  obtain ⟨p, q, rfl⟩ : ∃ (p : Fin 6400) (q : Fin 128), j = ix2 p q := ⟨j 0, j 1, eq_ix2 (n0 := 6400) (n1 := 128) j⟩
  have hp : p.val < 6400 := p.isLt
  have hq : q.val < 128 := q.isLt
  show k0_pay1 (F := Ideal) (iblk0 V c 0 t) (iblk0 V c 1 t) (ix2 p q)
    = whole V c (((cfg0.win 2).blk t).view.emb (ix2 p q))
  rw [block_out t p q ⟨6400 * t.val + p.val, by omega⟩ rfl]
  show _ = Cert.Spec.combo (aArr V c) (rArr V c) ⟨6400 * t.val + p.val, by omega⟩ q
  unfold Cert.Spec.combo
  by_cases h : q.val < 64
  · rw [dif_pos h]
    refine (payload_left (iblk0 V c 0 t) (iblk0 V c 1 t) p q ⟨q.val, h⟩ rfl).trans ?_
    rw [block_a V c t p ⟨q.val, h⟩ ⟨6400 * t.val + p.val, by omega⟩ rfl,
      block_r V c t p ⟨q.val, h⟩ ⟨6400 * t.val + p.val, by omega⟩ rfl]
  · rw [dif_neg h]
    refine (payload_right (iblk0 V c 0 t) (iblk0 V c 1 t) p q ⟨q.val - 64, by omega⟩ (by show q.val - 64 + 64 = q.val; omega)).trans ?_
    rw [block_a V c t p ⟨q.val - 64, by omega⟩ ⟨6400 * t.val + p.val, by omega⟩ rfl,
      block_r V c t p ⟨q.val - 64, by omega⟩ ⟨6400 * t.val + p.val, by omega⟩ rfl]

/-- An index of the output array lies in point `t`'s block iff each coordinate lies in the block's range on its axis. -/
theorem in_block (t : Fin cfg0.N) (i : S1600000x128.Idx) :
    i ∈ ((cfg0.win 2).blk t).view.set ↔ ∀ a : Fin 2, win0_2.index t a * S6400x128.size a ≤ (i a).val
      ∧ (i a).val < win0_2.index t a * S6400x128.size a + S6400x128.size a := by
  show i ∈ ((View.whole main_v11).slice (win0_2.rect t)).set ↔ _
  rw [View.set_slice_whole, Rect.mem_set_unit]
  exact Iff.rfl

/-- The blocks tile the array: row `r` lies in the block of point `r / 6400`, which is written back. -/
theorem tiled (i : S1600000x128.Idx) :
    ∃ t : Fin cfg0.N, (cfg0.win 2).flush t = true ∧ i ∈ ((cfg0.win 2).blk t).view.set := by
  have hN : cfg0.N = 250 := N_0
  have hi0 : (i 0).val < 1600000 := (i 0).isLt
  have hi1 : (i 1).val < 128 := (i 1).isLt
  have ht : (i 0).val / 6400 < cfg0.N := by rw [hN]; omega
  obtain ⟨-, -, -, -, e0, e1⟩ := block_index ⟨(i 0).val / 6400, ht⟩
  refine ⟨⟨(i 0).val / 6400, ht⟩, flush0_2 _, ?_⟩
  rw [in_block]
  intro a
  match a with
  | ⟨0, _⟩ =>
    show win0_2.index ⟨(i 0).val / 6400, ht⟩ (0 : Fin 2) * 6400 ≤ (i 0).val
      ∧ (i 0).val < win0_2.index ⟨(i 0).val / 6400, ht⟩ (0 : Fin 2) * 6400 + 6400
    rw [e0]; show (i 0).val / 6400 * 6400 ≤ (i 0).val ∧ (i 0).val < (i 0).val / 6400 * 6400 + 6400; omega
  | ⟨1, _⟩ =>
    show win0_2.index ⟨(i 0).val / 6400, ht⟩ (1 : Fin 2) * 128 ≤ (i 1).val
      ∧ (i 1).val < win0_2.index ⟨(i 0).val / 6400, ht⟩ (1 : Fin 2) * 128 + 128
    rw [e1]; omega

/-- So the output array after the region is `whole`. -/
theorem outArr_eq (c : Dev nD) : outArr V c = whole V c :=
  (dat0 (F := Ideal) V c).arrAt_eq_of_cover 2 (whole V c) (fun t _ => written_back V c t) tiled

/-- The output array of the first region at `(e, q)`, from the two input arrays as the region finds them. -/
theorem value (c : Dev nD) (e : Fin 1600000) (q : Fin 128) :
    outArr V c (ix2 e q) = Cert.Spec.combo (aArr V c) (rArr V c) e q := by
  rw [outArr_eq V c]
  exact Cert.Spec.arr2_ix2 _ e q

end Cert.KernelIdeal.Region0

end
-- ==== Proof.Region1.lean ====
/-
  The second kernel's output array after its region, index by index.

  Each of the 25 grid points loads a 2000-row block of the scattered sums (lanes 0 to 63 the sums, 64 to 127 the
  sums of squares), of the boundary and of the degree column, and the whole weight matrix and bias row; it
  forms the update `sqrt (max ε ((sq + b²)/(deg + 1) − ((s + b)/(deg + 1))²))` and multiplies it into the
  transposed weight matrix (the casts to bf16 are the identity over the extended reals, the matrix product into
  a zero accumulator a plain sum over the 64 features), then adds the bias.  The blocks tile the array.
-/
import proofs.«419630_j63290638074667_3_alg».proof.Proof.Gen.KernelIdeal.Frame
import proofs.«419630_j63290638074667_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx

/-! ## The matrix product of the body, entry by entry -/

/-- The left factor is read at the output's row … -/
theorem lhs_axis0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- … and at the shared coordinate as its column; -/
theorem lhs_axis1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- the right factor at the shared coordinate as its row … -/
theorem rhs_axis0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- … and at the output's column. -/
theorem rhs_axis1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Into a zero accumulator the product of a 2000×64 block and a 64×64 matrix is, at `(p, j)`, the sum over the
    64 shared coordinates of the left factor's row `p` against the right factor's column `j`. -/
theorem matmul_at (l : FVec Ideal S2000x64 .bf16) (r : FVec Ideal S64x64 .bf16) (p : Fin 2000) (j : Fin 64) :
    matmul dot_S2000x64_S64x64_S2000x64_1_0_0_1_n_n none l r (constant (F := Ideal) S2000x64 .f32 0x00000000#32) (ix2 p j)
      = ∑ k : Fin 64, l (ix2 p k) * r (ix2 k j) := by
  refine (Ideal.matmul_constant_zero_apply dot_S2000x64_S64x64_S2000x64_1_0_0_1_n_n none l r (ix2 p j)).trans ?_
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p j) ((contrEquiv1 dot_S2000x64_S64x64_S2000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S2000x64_S64x64_S2000x64_1_0_0_1_n_n.rhsIdx (ix2 p j) ((contrEquiv1 dot_S2000x64_S64x64_S2000x64_1_0_0_1_n_n 64 rfl rfl).symm k) = ix2 k j := funext fun a => Fin.ext (by
    match a with
    | ⟨0, _⟩ => exact (rhs_axis0 _ _).trans hk
    | ⟨1, _⟩ => exact rhs_axis1 _ _)
  rw [el, er]

/-! ## The two broadcasts of the body -/

/-- A column `[2000, 1]` broadcast along the lanes reads, at `(p, q)`, the column's row `p`. -/
theorem bcast_col (v : S2000x1.Idx → EReal) (h : S2000x1.Broadcasts S2000x64) (p : Fin 2000) (q : Fin 64) :
    broadcastTo S2000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-! ## The update block of the body -/

/-- Lanes 0 to 63 of a block of scattered sums: the sums of the messages. -/
def loHalf (x0 : Vec Ideal S2000x128 .f32) : FVec Ideal S2000x64 .f32 :=
  extractStridedSlice S2000x64 ![0, 0] (shapeCast S2000x128 x0 shapeCasts_S2000x128_S2000x128) slices_S2000x128_o0_0_S2000x64
/-- Lanes 64 to 127: the sums of their squares. -/
def hiHalf (x0 : Vec Ideal S2000x128 .f32) : FVec Ideal S2000x64 .f32 :=
  extractStridedSlice S2000x64 ![0, 64] (shapeCast S2000x128 x0 shapeCasts_S2000x128_S2000x128) slices_S2000x128_o0_64_S2000x64
/-- The count `deg + 1` of a block's rows, spread along the lanes. -/
def count (x2 : Vec Ideal S2000x1 .f32) : FVec Ideal S2000x64 .f32 :=
  broadcastTo S2000x64 (addf (shapeCast S2000x1 x2 shapeCasts_S2000x1_S2000x1) (broadcast S2000x1 (Scalar.ofBits (F := Ideal) .f32 0x3F800000#32)))
    broadcasts_S2000x1_S2000x64
/-- The block of updates `sqrt (max ε (E[m²] − E[m]²))` the body forms before the matrix product. -/
def updBlk (x0 : Vec Ideal S2000x128 .f32) (x1 : Vec Ideal S2000x64 .f32) (x2 : Vec Ideal S2000x1 .f32) : FVec Ideal S2000x64 .f32 :=
  sqrt (maximumf (broadcast S2000x64 (Scalar.ofBits (F := Ideal) .f32 0x358637BD#32))
    (subf (divf (addf (hiHalf x0) (mulf x1 x1)) (count x2))
      (mulf (divf (addf (loHalf x0) x1) (count x2)) (divf (addf (loHalf x0) x1) (count x2)))))

/-- The body's result block is the update block times the transposed weights, plus the bias row spread over
    the rows. -/
theorem pay_eq (x0 : Vec Ideal S2000x128 .f32) (x1 : Vec Ideal S2000x64 .f32) (x2 : Vec Ideal S2000x1 .f32)
    (x3 : Vec Ideal S64x64 .f32) (x4 : Vec Ideal S1x64 .f32) :
    k1_pay1 x0 x1 x2 x3 x4
      = addf (matmul dot_S2000x64_S64x64_S2000x64_1_0_0_1_n_n none (truncf .bf16 (updBlk x0 x1 x2) bitsLt_bf16_f32)
            (transpose S64x64 [1, 0] (truncf .bf16 x3 bitsLt_bf16_f32) transposes_S64x64_p1_0_S64x64)
            (constant (F := Ideal) S2000x64 .f32 0x00000000#32))
          (broadcastTo S2000x64 (shapeCast S1x64 x4 shapeCasts_S1x64_S1x64) broadcasts_S1x64_S2000x64) := rfl

/-- Lane `k` of the lower half is lane `k` of the block. -/
theorem loHalf_at (x0 : Vec Ideal S2000x128 .f32) (p : Fin 2000) (k : Fin 64) :
    loHalf x0 (ix2 p k) = x0 (ix2 p ⟨k.val, by have := k.isLt; omega⟩) := by
  unfold loHalf
  refine (slice2_axis1_apply 0 _ _ p k ⟨k.val, by have := k.isLt; omega⟩ (by show k.val = 0 + k.val; omega)).trans ?_
  exact congrFun (shapeCast_self x0 _) _

/-- Lane `k` of the upper half is lane `64 + k` of the block. -/
theorem hiHalf_at (x0 : Vec Ideal S2000x128 .f32) (p : Fin 2000) (k : Fin 64) :
    hiHalf x0 (ix2 p k) = x0 (ix2 p ⟨64 + k.val, by have := k.isLt; omega⟩) := by
  unfold hiHalf
  refine (slice2_axis1_apply 64 _ _ p k ⟨64 + k.val, by have := k.isLt; omega⟩ rfl).trans ?_
  exact congrFun (shapeCast_self x0 _) _

/-- The count at `(p, k)` is the degree of row `p` plus one, whatever the lane. -/
theorem count_at (x2 : Vec Ideal S2000x1 .f32) (p : Fin 2000) (k : Fin 64) :
    count x2 (ix2 p k) = x2 (ix2 p (0 : Fin 1)) + Ideal.ofBits .f32 0x3F800000#32 := by
  unfold count
  refine (bcast_col _ _ p k).trans ?_
  show shapeCast S2000x1 x2 shapeCasts_S2000x1_S2000x1 (ix2 p (0 : Fin 1)) + Ideal.ofBits .f32 0x3F800000#32 = _
  rw [shapeCast_self]

/-- The update block at `(p, k)`, from row `p` of the three input blocks. -/
theorem updBlk_at (x0 : Vec Ideal S2000x128 .f32) (x1 : Vec Ideal S2000x64 .f32) (x2 : Vec Ideal S2000x1 .f32)
    (p : Fin 2000) (k : Fin 64) :
    updBlk x0 x1 x2 (ix2 p k)
      = Ideal.sqrt (max (Ideal.ofBits .f32 0x358637BD#32)
          (Ideal.div (x0 (ix2 p ⟨64 + k.val, by have := k.isLt; omega⟩) + x1 (ix2 p k) * x1 (ix2 p k))
              (x2 (ix2 p (0 : Fin 1)) + Ideal.ofBits .f32 0x3F800000#32)
            - Ideal.div (x0 (ix2 p ⟨k.val, by have := k.isLt; omega⟩) + x1 (ix2 p k)) (x2 (ix2 p (0 : Fin 1)) + Ideal.ofBits .f32 0x3F800000#32)
              * Ideal.div (x0 (ix2 p ⟨k.val, by have := k.isLt; omega⟩) + x1 (ix2 p k)) (x2 (ix2 p (0 : Fin 1)) + Ideal.ofBits .f32 0x3F800000#32))) := by
  show Ideal.sqrt (max (Ideal.ofBits .f32 0x358637BD#32)
          (Ideal.div (hiHalf x0 (ix2 p k) + x1 (ix2 p k) * x1 (ix2 p k)) (count x2 (ix2 p k))
            - Ideal.div (loHalf x0 (ix2 p k) + x1 (ix2 p k)) (count x2 (ix2 p k))
              * Ideal.div (loHalf x0 (ix2 p k) + x1 (ix2 p k)) (count x2 (ix2 p k)))) = _
  rw [hiHalf_at, loHalf_at, count_at]

/-- The body's result block at `(p, j)`: row `p` of the update block against row `j` of the weight block, plus
    the bias at `j`. -/
theorem pay_at (x0 : Vec Ideal S2000x128 .f32) (x1 : Vec Ideal S2000x64 .f32) (x2 : Vec Ideal S2000x1 .f32)
    (x3 : Vec Ideal S64x64 .f32) (x4 : Vec Ideal S1x64 .f32) (p : Fin 2000) (j : Fin 64) :
    k1_pay1 x0 x1 x2 x3 x4 (ix2 p j)
      = (∑ k : Fin 64, updBlk x0 x1 x2 (ix2 p k) * x3 (ix2 j k)) + x4 (ix2 (0 : Fin 1) j) := by
  rw [pay_eq]
  refine congrArg₂ (· + ·) ?_ ?_
  · refine (matmul_at _ _ p j).trans ?_
    refine Finset.sum_congr rfl fun k _ => ?_
    refine congrArg₂ (· * ·) rfl ?_
    exact transpose_ix2_apply _ _ k j
  · refine (broadcastTo_1b_ab_apply _ _ p j).trans ?_
    exact congrFun (shapeCast_self x4 _) _

variable (V : (c : Dev nD) → (b : Ref sig .tc) → Buf (Elt Ideal) ((c : Thread nD τ).loc b))

/-- The five input arrays as the region finds them, each at its literal type. -/
abbrev ssArr (c : Dev nD) : S50000x128.Idx → EReal := V c main_v14
abbrev bndArr (c : Dev nD) : S50000x64.Idx → EReal := V c main_arg1
abbrev degArr (c : Dev nD) : S50000x1.Idx → EReal := V c main_v19
abbrev wArr (c : Dev nD) : S64x64.Idx → EReal := V c main_arg5
abbrev bArr (c : Dev nD) : S1x64.Idx → EReal := V c main_v20
/-- The output array after the region, at its literal type. -/
abbrev outArr (c : Dev nD) : S50000x64.Idx → EReal := (dat1 (F := Ideal) V c).arrAt 5 cfg1.N

/-! ## One entry of a result block against the arrays -/

/-- If row `p` of the three row blocks is row `n` of their arrays, and the weight and bias blocks are their arrays,
    the body's result at `(p, j)` is the specification's result at `(n, j)`. -/
theorem block_value (ss : S50000x128.Idx → EReal) (bnd : S50000x64.Idx → EReal) (deg : S50000x1.Idx → EReal)
    (W : S64x64.Idx → EReal) (b : S1x64.Idx → EReal)
    (x0 : Vec Ideal S2000x128 .f32) (x1 : Vec Ideal S2000x64 .f32) (x2 : Vec Ideal S2000x1 .f32)
    (x3 : Vec Ideal S64x64 .f32) (x4 : Vec Ideal S1x64 .f32) (n : Fin 50000) (p : Fin 2000) (j : Fin 64)
    (h0 : ∀ q : Fin 128, x0 (ix2 p q) = ss (ix2 n q)) (h1 : ∀ q : Fin 64, x1 (ix2 p q) = bnd (ix2 n q))
    (h2 : x2 (ix2 p (0 : Fin 1)) = deg (ix2 n (0 : Fin 1))) (h3 : ∀ a k : Fin 64, x3 (ix2 a k) = W (ix2 a k))
    (h4 : ∀ q : Fin 64, x4 (ix2 (0 : Fin 1) q) = b (ix2 (0 : Fin 1) q)) :
    k1_pay1 x0 x1 x2 x3 x4 (ix2 p j)
      = Cert.Spec.final
          (fun n k => ss (ix2 n ⟨k.val, by have := k.isLt; omega⟩))
          (fun n k => ss (ix2 n ⟨64 + k.val, by have := k.isLt; omega⟩))
          (fun n k => bnd (ix2 n k))
          (fun n => deg (ix2 n 0) + Ideal.ofBits .f32 0x3F800000#32)
          (fun j k => W (ix2 j k))
          (fun j => b (ix2 0 j)) n j := by
  rw [pay_at]
  unfold Cert.Spec.final Cert.Spec.upd
  refine congrArg₂ (· + ·) (Finset.sum_congr rfl fun k _ => ?_) (h4 j)
  rw [updBlk_at, h0, h0, h1, h2, h3]

/-! ## The blocks of the five input windows, read off their arrays -/

/-- The zero offsets of a whole-block access. -/
theorem hz : (![0, 0] : Fin 2 → Nat) = fun _ => 0 := funext fun a => by fin_cases a <;> rfl

/-- The index maps of the six windows over the 25 points: the three row windows and the output sit at block `t` of the
    rows, the weight and bias windows at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the block of sums at point `t` is row `2000 t + p` of the array. -/
theorem ssBlk_at (c : Dev nD) (t : Fin cfg1.N) (p : Fin 2000) (q : Fin 128) (n : Fin 50000) (hn : n.val = 2000 * t.val + p.val) :
    (iblk1 V c 0 t : Vec Ideal S2000x128 .f32) (ix2 p q) = ssArr V c (ix2 n q) := by
  obtain ⟨e0, e1, -⟩ := idx_facts t
  show V c main_v14 (((cfg1.win 0).blk t).view.emb (ix2 p q)) = V c main_v14 (ix2 n q)
  refine congrArg (V c main_v14) (funext fun a => Fin.ext ?_)
  match a with
  | ⟨0, _⟩ => show win1_0.index t (0 : Fin 2) * 2000 + 1 * p.val = n.val; omega
  | ⟨1, _⟩ => show win1_0.index t (1 : Fin 2) * 128 + 1 * q.val = q.val; omega

/-- Row `p` of the boundary block at point `t` is row `2000 t + p` of the array. -/
theorem bndBlk_at (c : Dev nD) (t : Fin cfg1.N) (p : Fin 2000) (q : Fin 64) (n : Fin 50000) (hn : n.val = 2000 * t.val + p.val) :
    (iblk1 V c 1 t : Vec Ideal S2000x64 .f32) (ix2 p q) = bndArr V c (ix2 n q) := by
  obtain ⟨-, -, e0, e1, -⟩ := idx_facts t
  show V c main_arg1 (((cfg1.win 1).blk t).view.emb (ix2 p q)) = V c main_arg1 (ix2 n q)
  refine congrArg (V c main_arg1) (funext fun a => Fin.ext ?_)
  match a with
  | ⟨0, _⟩ => show win1_1.index t (0 : Fin 2) * 2000 + 1 * p.val = n.val; omega
  | ⟨1, _⟩ => show win1_1.index t (1 : Fin 2) * 64 + 1 * q.val = q.val; omega

/-- Row `p` of the degree block at point `t` is row `2000 t + p` of the column. -/
theorem degBlk_at (c : Dev nD) (t : Fin cfg1.N) (p : Fin 2000) (n : Fin 50000) (hn : n.val = 2000 * t.val + p.val) :
    (iblk1 V c 2 t : Vec Ideal S2000x1 .f32) (ix2 p (0 : Fin 1)) = degArr V c (ix2 n (0 : Fin 1)) := by
  obtain ⟨-, -, -, -, e0, e1, -⟩ := idx_facts t
  show V c main_v19 (((cfg1.win 2).blk t).view.emb (ix2 p (0 : Fin 1))) = V c main_v19 (ix2 n (0 : Fin 1))
  refine congrArg (V c main_v19) (funext fun a => Fin.ext ?_)
  match a with
  | ⟨0, _⟩ => show win1_2.index t (0 : Fin 2) * 2000 + 1 * p.val = n.val; omega
  | ⟨1, _⟩ => show win1_2.index t (1 : Fin 2) * 1 + 1 * 0 = 0; omega

/-- The weight block is the whole weight matrix at every point. -/
theorem wBlk_at (c : Dev nD) (t : Fin cfg1.N) (a k : Fin 64) :
    (iblk1 V c 3 t : Vec Ideal S64x64 .f32) (ix2 a k) = wArr V c (ix2 a k) := by
  obtain ⟨-, -, -, -, -, -, e0, e1, -⟩ := idx_facts t
  show V c main_arg5 (((cfg1.win 3).blk t).view.emb (ix2 a k)) = V c main_arg5 (ix2 a k)
  refine congrArg (V c main_arg5) (funext fun d => Fin.ext ?_)
  match d with
  | ⟨0, _⟩ => show win1_3.index t (0 : Fin 2) * 64 + 1 * a.val = a.val; omega
  | ⟨1, _⟩ => show win1_3.index t (1 : Fin 2) * 64 + 1 * k.val = k.val; omega

/-- The bias block is the whole bias row at every point. -/
theorem bBlk_at (c : Dev nD) (t : Fin cfg1.N) (q : Fin 64) :
    (iblk1 V c 4 t : Vec Ideal S1x64 .f32) (ix2 (0 : Fin 1) q) = bArr V c (ix2 (0 : Fin 1) q) := by
  obtain ⟨-, -, -, -, -, -, -, -, e0, e1, -⟩ := idx_facts t
  show V c main_v20 (((cfg1.win 4).blk t).view.emb (ix2 (0 : Fin 1) q)) = V c main_v20 (ix2 (0 : Fin 1) q)
  refine congrArg (V c main_v20) (funext fun d => Fin.ext ?_)
  match d with
  | ⟨0, _⟩ => show win1_4.index t (0 : Fin 2) * 1 + 1 * 0 = 0; omega
  | ⟨1, _⟩ => show win1_4.index t (1 : Fin 2) * 64 + 1 * q.val = q.val; omega

/-! ## From blocks to the array -/

/-- The whole output array as one function of the five input arrays: the specification's result, index by index. -/
def wholeOut (c : Dev nD) : S50000x64.Idx → EReal := fun i =>
  Cert.Spec.final
    (fun n k => ssArr V c (ix2 n ⟨k.val, by have := k.isLt; omega⟩))
    (fun n k => ssArr V c (ix2 n ⟨64 + k.val, by have := k.isLt; omega⟩))
    (fun n k => bndArr V c (ix2 n k))
    (fun n => degArr V c (ix2 n 0) + Ideal.ofBits .f32 0x3F800000#32)
    (fun j k => wArr V c (ix2 j k))
    (fun j => bArr V c (ix2 0 j)) (i 0) (i 1)

/-- Two arrays of rank two are equal when they agree at every pair of coordinates. -/
theorem ext_ix2 {n0 n1 : Nat} {α : Type} {f g : (⟨2, ![n0, n1]⟩ : Shape).Idx → α}
    (h : ∀ (p : Fin n0) (q : Fin n1), f (ix2 p q) = g (ix2 p q)) : f = g :=
  funext fun y => by rw [eq_ix2 y]; exact h _ _

/-- What point `t` writes back is rows `2000 t` to `2000 t + 1999` of `wholeOut`. -/
theorem flushed_eq (c : Dev nD) (t : Fin cfg1.N) :
    (dat1 (F := Ideal) V c).flushed 5 t = ((cfg1.win 5).blk t).view.read (Elt Ideal) (wholeOut V c) := by
  show (cfg1.win 5).cut (grid1.coords t) ((dat1 (F := Ideal) V c).after 5 t) = _
  rw [after1_5]
  unfold out1_5
  rw [View.canon_unit_zero hz]
  simp only [View.ld_unit_zero (S := S2000x128) hz, View.ld_unit_zero (S := S2000x64) hz, View.ld_unit_zero (S := S2000x1) hz,
    View.ld_unit_zero (S := S64x64) hz, View.ld_unit_zero (S := S1x64) hz]
  refine ext_ix2 (n0 := 2000) (n1 := 64) fun p q => ?_
  have ht : t.val < 25 := lt_of_lt_of_eq t.isLt N_1
  obtain ⟨-, -, -, -, -, -, -, -, -, -, e0, e1⟩ := idx_facts t
  have hemb : ((cfg1.win 5).blk t).view.emb (ix2 p q) = ix2 (⟨2000 * t.val + p.val, by have := p.isLt; omega⟩ : Fin 50000) q :=
    funext fun a => Fin.ext (by
      match a with
      | ⟨0, _⟩ => show win1_5.index t (0 : Fin 2) * 2000 + 1 * p.val = 2000 * t.val + p.val; omega
      | ⟨1, _⟩ => show win1_5.index t (1 : Fin 2) * 64 + 1 * q.val = q.val; omega)
  show k1_pay1 (iblk1 V c 0 t) (iblk1 V c 1 t) (iblk1 V c 2 t) (iblk1 V c 3 t) (iblk1 V c 4 t) (ix2 p q)
    = wholeOut V c (((cfg1.win 5).blk t).view.emb (ix2 p q))
  refine Eq.trans ?_ (congrArg (wholeOut V c) hemb).symm
  exact block_value (ssArr V c) (bndArr V c) (degArr V c) (wArr V c) (bArr V c)
    (iblk1 V c 0 t) (iblk1 V c 1 t) (iblk1 V c 2 t) (iblk1 V c 3 t) (iblk1 V c 4 t)
    ⟨2000 * t.val + p.val, by have := p.isLt; omega⟩ p q
    (fun q' => ssBlk_at V c t p q' _ rfl) (fun q' => bndBlk_at V c t p q' _ rfl) (degBlk_at V c t p _ rfl)
    (fun a k => wBlk_at V c t a k) (fun q' => bBlk_at V c t q')

/-- An index of the array is in point `t`'s block iff each coordinate is in the block's range on its axis. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v21).slice (win1_5.rect t)).set ↔ _
  rw [View.set_slice_whole, Rect.mem_set_unit]
  exact Iff.rfl

/-- Row `n` of the array lies in the block of point `n / 2000`: the 25 blocks tile the 50000 rows. -/
theorem cover (i : S50000x64.Idx) : ∃ t : Fin cfg1.N, (cfg1.win 5).flush t = true ∧ i ∈ ((cfg1.win 5).blk t).view.set := by
  have h0 : (i 0).val < 50000 := (i 0).isLt
  have h1 : (i 1).val < 64 := (i 1).isLt
  have hN : cfg1.N = 25 := N_1
  obtain ⟨t, htv⟩ : ∃ t : Fin cfg1.N, t.val = (i 0).val / 2000 := ⟨⟨(i 0).val / 2000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The output array after the region is `wholeOut` of the five input arrays. -/
theorem outArr_eq (c : Dev nD) : outArr V c = wholeOut V c :=
  (dat1 (F := Ideal) V c).arrAt_eq_of_cover 5 (wholeOut V c) (fun t _ => flushed_eq V c t) cover

/-- The output array of the second region at `(n, j)`, from its five input arrays as the region finds them. -/
theorem value (c : Dev nD) (n : Fin 50000) (j : Fin 64) :
    outArr V c (ix2 n j)
      = Cert.Spec.final
          (fun n k => ssArr V c (ix2 n ⟨k.val, by have := k.isLt; omega⟩))
          (fun n k => ssArr V c (ix2 n ⟨64 + k.val, by have := k.isLt; omega⟩))
          (fun n k => bndArr V c (ix2 n k))
          (fun n => degArr V c (ix2 n 0) + Ideal.ofBits .f32 0x3F800000#32)
          (fun j k => wArr V c (ix2 j k))
          (fun j => bArr V c (ix2 0 j)) n j :=
  congrFun (outArr_eq V c) (ix2 n j)

end Cert.KernelIdeal.Region1

end
-- ==== Proof.LibScatterRows.lean ====
/-
  A row scatter with an add body, read at an index, over the extended reals.

  `jax.ops.segment_sum (u, ids, num_segments = N)` over an `[E, C]` array prints as a `stablehlo.scatter` whose
  indices are the `[E, 1]` column of `ids`: update row `e` lands whole on operand row `ids[e]` (read signed, not
  clamped), lane for lane, and is dropped when that row is outside `[0, N)`.  So element `(n, k)` of the result
  is the operand's element plus the sum of `u[e, k]` over the edges `e` with `ids[e] = n`.
-/
import Idealize.ShloMosaic.PureOps.Ideal
import Idealize.ShloMosaic.PureOps.Contract
import Idealize.ShloMosaic.Lib.ValueIdx

noncomputable section

namespace Cert.ScatterRows

open Idealize.ShloMosaic Idealize.ShloMosaic.ValueIdx

/-! ## The four axis facts of a row scatter

With the dimension numbers `update_window_dims = [1]`, `inserted_window_dims = [0]`, `scatter_dims_to_operand_dims = [0]`
and `index_vector_dim = 1`, operand axis `0` (the row) is named by the index vector and carries no window coordinate,
and operand axis `1` (the lane) is not named and carries the update's lane. -/

section
variable {N E C w : Nat} (wf : ScatterDims.WF ⟨2, ![N, C]⟩ ⟨2, ![E, 1]⟩ ⟨2, ![E, C]⟩ [1] [0] [0] 1)

/-- The dimension numbers of a row scatter, with the four lists written out. -/
abbrev rowDims : ScatterDims ⟨2, ![N, C]⟩ ⟨2, ![E, 1]⟩ ⟨2, ![E, C]⟩ := ⟨[1], [0], [0], 1, wf⟩

/-- On the row axis the window of update element `(e, q)` starts at row `e`'s index, read signed: the start index's
    one component is read at `(e, 0)` of the index column. -/
theorem start_row (idx : IVec ⟨2, ![E, 1]⟩ w) (e : Fin E) (q : Fin C) :
    (rowDims wf).start (ix2 e q) idx 0 = (idx (ix2 e 0)).toInt := by
  unfold ScatterDims.start
  rw [dif_pos (List.mem_singleton_self _)]
  congr 2
  funext b
  match b with
  | ⟨0, _⟩ =>
    unfold ScatterDims.siIdx
    rw [dif_neg (by exact Nat.zero_ne_one)]
    unfold ScatterDims.siCoord
    exact Fin.ext rfl
  | ⟨1, _⟩ =>
    unfold ScatterDims.siIdx
    rw [dif_pos (by exact rfl)]
    exact Fin.ext rfl

/-- On the lane axis, which the index vector does not name, every window starts at `0`. -/
theorem start_lane (idx : IVec ⟨2, ![E, 1]⟩ w) (j : (⟨2, ![E, C]⟩ : Shape).Idx) :
    (rowDims wf).start j idx 1 = 0 := by
  unfold ScatterDims.start
  rw [dif_neg (by exact (by decide : ¬ (1 : Fin 2) ∈ [0]))]

/-- The row axis is an inserted window axis: the window coordinate there is `0`. -/
theorem window_row (j : (⟨2, ![E, C]⟩ : Shape).Idx) : (rowDims wf).window j 0 = 0 := by
  unfold ScatterDims.window
  rw [dif_neg (by exact (by decide : ¬ (0 : Fin 2) ∈ [1]))]

/-- On the lane axis the window coordinate of update element `(e, q)` is its lane `q`. -/
theorem window_lane (e : Fin E) (q : Fin C) : (rowDims wf).window (ix2 e q) 1 = q.val := by
  unfold ScatterDims.window
  rw [dif_pos (by exact (by decide : (1 : Fin 2) ∈ [1]))]
  rfl

end

/-! ## Where an update element lands, and the scatter-add read at an index -/

/-- Where update element `(e, q)` of a row scatter lands: on `(n, k)` exactly when row `e`'s index, read signed,
    is `n` and the lane is the same. -/
theorem resultIdx_iff {N E C w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (q : Fin C) (n : Fin N) (k : Fin C) :
    d.resultIdx? (ix2 e q) idx = some (ix2 n k) ↔ (idx (ix2 e 0)).toInt = (n.val : Int) ∧ q = k := by
  -- the four lists become the literals of `rowDims`
  obtain ⟨uw, iw, sd, iv, wf⟩ := d
  simp only at h1 h2 h3 h4
  subst h1 h2 h3 h4
  have hs0 := start_row wf idx e q
  have hs1 := start_lane wf idx (ix2 e q)
  have hw0 := window_row (N := N) wf (ix2 e q)
  have hw1 := window_lane (N := N) wf e q
  have hn := n.isLt
  have hq := q.isLt
  constructor
  · -- landing on `(n, k)`: the row coordinate is the index itself (it is not negative), the lane coordinate is `q`
    intro hr
    unfold ScatterDims.resultIdx? at hr
    split at hr
    · next h =>
      have hf := Option.some.inj hr
      have f0 : ((rowDims wf).start (ix2 e q) idx 0 + ((rowDims wf).window (ix2 e q) 0 : Nat)).toNat = n.val :=
        congrArg Fin.val (congrFun hf 0)
      have f1 : ((rowDims wf).start (ix2 e q) idx 1 + ((rowDims wf).window (ix2 e q) 1 : Nat)).toNat = k.val :=
        congrArg Fin.val (congrFun hf 1)
      have g0 := (h 0).1
      rw [hs0, hw0] at f0 g0
      rw [hs1, hw1] at f1
      exact ⟨by omega, Fin.ext (by omega)⟩
    · exact absurd hr (by simp)
  · -- conversely the index `n` is a row of the operand and `q` a lane of it, so the element is kept, at `(n, q)`
    rintro ⟨hi, rfl⟩
    have h : ∀ a, 0 ≤ (rowDims wf).start (ix2 e q) idx a + ((rowDims wf).window (ix2 e q) a : Nat) ∧
        (rowDims wf).start (ix2 e q) idx a + ((rowDims wf).window (ix2 e q) a : Nat) < (![N, C] a : Nat) := by
      refine Fin.forall_fin_two.2 ⟨?_, ?_⟩
      · rw [hs0, hw0, hi]
        exact ⟨by omega, by show _ < (N : Int); omega⟩
      · rw [hs1, hw1]
        exact ⟨by omega, by show _ < (C : Int); omega⟩
    unfold ScatterDims.resultIdx?
    rw [dif_pos h]
    congr 1
    funext a
    revert a
    refine Fin.forall_fin_two.2 ⟨?_, ?_⟩
    · apply Fin.ext
      show ((rowDims wf).start (ix2 e q) idx 0 + ((rowDims wf).window (ix2 e q) 0 : Nat)).toNat = n.val
      rw [hs0, hw0, hi]; omega
    · apply Fin.ext
      show ((rowDims wf).start (ix2 e q) idx 1 + ((rowDims wf).window (ix2 e q) 1 : Nat)).toNat = q.val
      rw [hs1, hw1]; omega

/-- The row scatter-add at `(n, k)`: the operand's element plus the sum of lane `k` of the update rows whose index is `n`. -/
theorem scatterAdd_apply {N E C w : Nat} {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![E, 1]⟩ w)
    (upd : FVec Ideal ⟨2, ![E, C]⟩ φ) (n : Fin N) (k : Fin C) :
    Host.scatterAdd d x idx upd (ix2 n k)
      = x (ix2 n k) + ∑ e ∈ Finset.univ.filter (fun e : Fin E => (idx (ix2 e 0)).toInt = (n.val : Int)), upd (ix2 e k) := by
  -- the update elements that land on `(n, k)` are exactly the `(e, k)` with row `e`'s index equal to `n`:
  -- `e ↦ (e, k)` is a bijection from those rows onto them
  have hsum : ∑ e ∈ Finset.univ.filter (fun e : Fin E => (idx (ix2 e 0)).toInt = (n.val : Int)), upd (ix2 e k)
      = ∑ j ∈ Finset.univ.filter (fun j => d.resultIdx? j idx = some (ix2 n k)), upd j := by
    refine Finset.sum_bij (fun e _ => ix2 e k) ?_ ?_ ?_ ?_
    · intro e he
      rw [Finset.mem_filter] at he ⊢
      exact ⟨Finset.mem_univ _, (resultIdx_iff d h1 h2 h3 h4 idx e k n k).2 ⟨he.2, rfl⟩⟩
    · intro a _ b _ hab
      exact congrFun hab 0
    · intro j hj
      rw [Finset.mem_filter] at hj
      obtain ⟨e, q, rfl⟩ : ∃ (e : Fin E) (q : Fin C), j = ix2 e q := ⟨j 0, j 1, eq_ix2 j⟩
      obtain ⟨hi, rfl⟩ := (resultIdx_iff d h1 h2 h3 h4 idx e q n k).1 hj.2
      exact ⟨e, Finset.mem_filter.2 ⟨Finset.mem_univ _, hi⟩, rfl⟩
    · intro e _
      rfl
  rw [hsum]
  rfl

end Cert.ScatterRows

end
-- ==== Proof.KValue.lean ====
/-
  The kernel program's result as the specification's function of its own primitive terms.

  The result buffer is the second region's output array; that region finds the scattered sums (the first
  region's output, the message beside its square, scatter-added by the target column), the boundary, the
  degree column, the weight matrix and the bias row.  Read at an index, the scatter-add is a sum over the edges
  that point at the node, lane for lane, so lanes 0 to 63 of the scattered sums are the sums of the messages
  and lanes 64 to 127 the sums of their squares; the first region's product `(x · w) · rel` is the message
  `x · rel · w` by commutativity of the product.
-/
import proofs.«419630_j63290638074667_3_alg».proof.Proof.HostK
import proofs.«419630_j63290638074667_3_alg».proof.Proof.Region0
import proofs.«419630_j63290638074667_3_alg».proof.Proof.Region1
import proofs.«419630_j63290638074667_3_alg».proof.Proof.LibScatterRows
import proofs.«419630_j63290638074667_3_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.HostK
open Idealize.ShloMosaic Idealize.ShloMosaic.TcCoe Idealize.SL.Sem Idealize.ShloMosaic.ValueIdx

variable (m : (ℓ : Loc nD τ sig) → Buf (Elt Ideal) ℓ) (ρ : Dev nD → PrngReg)

/-- The scaled source rows at `(e, k)`: the gathered row's entry times the edge's weight. -/
theorem aScaled_apply (x0 : FVec Ideal S50000x64 .f32) (x2 : IVec S1600000x3 32) (x3 : FVec Ideal S1600000 .f32)
    (e : Fin 1600000) (k : Fin 64) :
    aScaled x0 x2 x3 (ix2 e k) = gA x0 x2 (ix2 e k) * x3 (ix1 e) := by
  unfold aScaled
  rw [mulf_apply]
  refine congrArg (gA x0 x2 (ix2 e k) * ·) ?_
  refine (broadcastInDim_apply _ bcast_S1600000x1_S1600000x64_0_1 _ (ix2 e k) (ix2 e 0) (fun a => match a with
    | ⟨0, _⟩ => by show e.val = if (1600000 : Nat) = 1 then 0 else e.val; rw [if_neg (by decide)]
    | ⟨1, _⟩ => by show 0 = if (1 : Nat) = 1 then 0 else k.val; rw [if_pos rfl])).trans ?_
  exact broadcastInDim_apply _ bcast_S1600000_S1600000x1_0 x3 (ix2 e 0) (ix1 e) (fun a => match a with
    | ⟨0, _⟩ => by show e.val = if (1600000 : Nat) = 1 then 0 else e.val; rw [if_neg (by decide)])

/-- A vector reshaped to a column reads, at `(n, 0)`, the vector at `n`. -/
theorem col_apply (x : FVec Ideal S50000 .f32) (n : Fin 50000) :
    shapeCast S50000x1 x shapeCasts_S50000_S50000x1 (ix2 n 0) = x (ix1 n) :=
  shapeCast_apply x shapeCasts_S50000_S50000x1 (ix2 n 0) (ix1 n) (by
    rw [Shape.rowMajor_val_two, Shape.rowMajor_val_one]; show n.val = n.val * 1 + 0; omega)

/-- A vector reshaped to a row reads, at `(0, j)`, the vector at `j`. -/
theorem row_apply (x : FVec Ideal S64 .f32) (j : Fin 64) :
    shapeCast S1x64 x shapeCasts_S64_S1x64 (ix2 0 j) = x (ix1 j) :=
  shapeCast_apply x shapeCasts_S64_S1x64 (ix2 0 j) (ix1 j) (by
    rw [Shape.rowMajor_val_two, Shape.rowMajor_val_one]; show j.val = 0 * 64 + j.val; omega)

/-- The first region's output at `(e, k)` for a lane `k < 64` is the message. -/
theorem combo_lo (c : Dev nD) (e : Fin 1600000) (k : Fin 64) :
    comboArr m ρ c (ix2 e ⟨k.val, by have := k.isLt; omega⟩)
      = Cert.Spec.msg (gA (a0 m c) (a2 m c)) (gR (a4 m c) (a2 m c)) (a3 m c) e k := by
  refine (Region0.value (V4 m ρ) c e ⟨k.val, by have := k.isLt; omega⟩).trans ?_
  unfold Cert.Spec.combo Cert.Spec.msg
  rw [dif_pos (show (⟨k.val, by have := k.isLt; omega⟩ : Fin 128).val < 64 from k.isLt)]
  show Region0.aArr (V4 m ρ) c (ix2 e k) * Region0.rArr (V4 m ρ) c (ix2 e k) = _
  rw [show Region0.aArr (V4 m ρ) c = aScaled (a0 m c) (a2 m c) (a3 m c) from entry0_a m ρ c,
    show Region0.rArr (V4 m ρ) c = gR (a4 m c) (a2 m c) from entry0_r m ρ c, aScaled_apply]
  exact mul_right_comm _ _ _

/-- At lane `64 + k` it is the square of the message. -/
theorem combo_hi (c : Dev nD) (e : Fin 1600000) (k : Fin 64) :
    comboArr m ρ c (ix2 e ⟨64 + k.val, by have := k.isLt; omega⟩)
      = Cert.Spec.msg (gA (a0 m c) (a2 m c)) (gR (a4 m c) (a2 m c)) (a3 m c) e k
        * Cert.Spec.msg (gA (a0 m c) (a2 m c)) (gR (a4 m c) (a2 m c)) (a3 m c) e k := by
  refine (Region0.value (V4 m ρ) c e ⟨64 + k.val, by have := k.isLt; omega⟩).trans ?_
  unfold Cert.Spec.combo
  rw [dif_neg (show ¬ (⟨64 + k.val, by have := k.isLt; omega⟩ : Fin 128).val < 64 from by show ¬ 64 + k.val < 64; omega)]
  have hk : (⟨(⟨64 + k.val, by have := k.isLt; omega⟩ : Fin 128).val - 64, by have := k.isLt; show 64 + k.val - 64 < 64; omega⟩ : Fin 64) = k :=
    Fin.ext (by show 64 + k.val - 64 = k.val; omega)
  rw [hk]
  unfold Cert.Spec.msg
  show (Region0.aArr (V4 m ρ) c (ix2 e k) * Region0.rArr (V4 m ρ) c (ix2 e k))
      * (Region0.aArr (V4 m ρ) c (ix2 e k) * Region0.rArr (V4 m ρ) c (ix2 e k)) = _
  rw [show Region0.aArr (V4 m ρ) c = aScaled (a0 m c) (a2 m c) (a3 m c) from entry0_a m ρ c,
    show Region0.rArr (V4 m ρ) c = gR (a4 m c) (a2 m c) from entry0_r m ρ c, aScaled_apply,
    mul_right_comm (gA (a0 m c) (a2 m c) (ix2 e k))]

/-- The scattered sums at `(n, q)`: zero plus the sum of lane `q` of the first region's output over the edges
    that point at `n`. -/
theorem ss_apply (c : Dev nD) (n : Fin 50000) (q : Fin 128) :
    ssOf (a2 m c) (comboArr m ρ c) (ix2 n q)
      = Ideal.ofBits .f32 0x00000000#32
        + ∑ e ∈ Finset.univ.filter (fun e : Fin 1600000 => (outCol (a2 m c) (ix2 e 0)).toInt = (n.val : Int)),
            comboArr m ρ c (ix2 e q) := by
  unfold ssOf
  rw [Cert.ScatterRows.scatterAdd_apply _ rfl rfl rfl rfl]
  rfl

/-- THE KERNEL'S VALUE: its result buffer is the specification's `out` of its gathered rows, the edge weights, its
    target column, the boundary, its degree array, the weight matrix and the bias. -/
theorem value (c : Dev nD) :
    (W7 m ρ c (Proc.devRef .tc main_v21) : S50000x64.Idx → EReal)
      = Cert.Spec.out (gA (a0 m c) (a2 m c)) (gR (a4 m c) (a2 m c)) (a3 m c) (outCol (a2 m c)) (a1 m c)
          (degK (F := Ideal) (a2 m c)) (a5 m c) (a6 m c) := by
  rw [result_eq m ρ c]
  funext i
  obtain ⟨n, j, rfl⟩ : ∃ (n : Fin 50000) (j : Fin 64), i = ix2 n j := ⟨i 0, i 1, eq_ix2 i⟩
  refine (Region1.value (V6 m ρ) c n j).trans ?_
  unfold Cert.Spec.out
  rw [Cert.Spec.arr2_ix2]
  have e1 : (fun (n : Fin 50000) (k : Fin 64) => Region1.ssArr (V6 m ρ) c (ix2 n ⟨k.val, by have := k.isLt; omega⟩))
      = fun n k => Ideal.ofBits .f32 0x00000000#32
          + Cert.Spec.rowSum (outCol (a2 m c)) (fun e => Cert.Spec.msg (gA (a0 m c) (a2 m c)) (gR (a4 m c) (a2 m c)) (a3 m c) e k) n := by
    funext n k
    rw [show Region1.ssArr (V6 m ρ) c = ssOf (a2 m c) (comboArr m ρ c) from entry1_ss m ρ c, ss_apply]
    unfold Cert.Spec.rowSum
    exact congrArg _ (Finset.sum_congr rfl fun e _ => combo_lo m ρ c e k)
  have e2 : (fun (n : Fin 50000) (k : Fin 64) => Region1.ssArr (V6 m ρ) c (ix2 n ⟨64 + k.val, by have := k.isLt; omega⟩))
      = fun n k => Ideal.ofBits .f32 0x00000000#32
          + Cert.Spec.rowSum (outCol (a2 m c)) (fun e => Cert.Spec.msg (gA (a0 m c) (a2 m c)) (gR (a4 m c) (a2 m c)) (a3 m c) e k
              * Cert.Spec.msg (gA (a0 m c) (a2 m c)) (gR (a4 m c) (a2 m c)) (a3 m c) e k) n := by
    funext n k
    rw [show Region1.ssArr (V6 m ρ) c = ssOf (a2 m c) (comboArr m ρ c) from entry1_ss m ρ c, ss_apply]
    unfold Cert.Spec.rowSum
    exact congrArg _ (Finset.sum_congr rfl fun e _ => combo_hi m ρ c e k)
  have e3 : (fun (n : Fin 50000) (k : Fin 64) => Region1.bndArr (V6 m ρ) c (ix2 n k)) = fun n k => a1 m c (ix2 n k) := by
    funext n k
    rw [show Region1.bndArr (V6 m ρ) c = a1 m c from entry1_bnd m ρ c]
  have e4 : (fun (n : Fin 50000) => Region1.degArr (V6 m ρ) c (ix2 n 0) + Ideal.ofBits .f32 0x3F800000#32)
      = fun n => degK (F := Ideal) (a2 m c) (ix1 n) + Ideal.ofBits .f32 0x3F800000#32 := by
    funext n
    rw [show Region1.degArr (V6 m ρ) c = shapeCast S50000x1 (degK (F := Ideal) (a2 m c)) shapeCasts_S50000_S50000x1
      from entry1_deg m ρ c, col_apply]
  have e5 : (fun (j k : Fin 64) => Region1.wArr (V6 m ρ) c (ix2 j k)) = fun j k => a5 m c (ix2 j k) := by
    funext j k
    rw [show Region1.wArr (V6 m ρ) c = a5 m c from entry1_w m ρ c]
  have e6 : (fun (j : Fin 64) => Region1.bArr (V6 m ρ) c (ix2 0 j)) = fun j => a6 m c (ix1 j) := by
    funext j
    rw [show Region1.bArr (V6 m ρ) c = shapeCast S1x64 (a6 m c) shapeCasts_S64_S1x64 from entry1_b m ρ c, row_apply]
  rw [e1, e2, e3, e4, e5, e6]

end Cert.KernelIdeal.KValue

end
-- ==== Proof.RefValue.lean ====
/-
  The reference's result, index by index, as the specification's function of its own intermediate arrays.

  Read off the reference's run one operation at a time: the two gathers stay as they are (their rows are
  parameters of the specification), the two message scatters are read at an index as sums over the edges that
  point at the node, the degree scatter stays as it is, and every other operation is pointwise, a layout
  operation, or the matrix product read as a sum over the 64 features.
-/
import proofs.«419630_j63290638074667_3_alg».proof.Proof.Gen.ReferenceIdeal.Read
import proofs.«419630_j63290638074667_3_alg».proof.Proof.Spec
import proofs.«419630_j63290638074667_3_alg».proof.Proof.LibScatterRows

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The message array at edge `e`, feature `k`: the product of the two gathered rows there, times the weight of
    the edge (the weight is laid first as a column, then along the 64 lanes, so it is read at `e` alone). -/
theorem msg_at (x0 : (⟨S50000x64, .f32⟩ : BufTy).Contents (Elt Ideal)) (x2 : (⟨S1600000x3, .i32⟩ : BufTy).Contents (Elt Ideal))
    (x3 : (⟨S1600000, .f32⟩ : BufTy).Contents (Elt Ideal)) (x4 : (⟨S512x64, .f32⟩ : BufTy).Contents (Elt Ideal))
    (e : Fin 1600000) (k : Fin 64) :
    Read.val_main_v23 (F := Ideal) x0 x2 x3 x4 (ix2 e k)
      = Cert.Spec.msg (Read.val_main_v12 (F := Ideal) x0 x2) (Read.val_main_v19 (F := Ideal) x2 x4) x3 e k := by
  have h : Read.idx_main_v21 (Read.idx_main_v22 (ix2 e k)) = ix1 e :=
    funext fun a => Fin.ext (by match a with | ⟨0, _⟩ => rfl)
  rw [Read.val_main_v23_apply, Read.val_main_v20_apply, Read.val_main_v22_apply, Read.val_main_v21_apply, h]
  rfl

/-- The first scatter at node `n`, feature `k`: zero plus the sum of the messages of the edges that point at `n`. -/
theorem sum1_at (x0 : (⟨S50000x64, .f32⟩ : BufTy).Contents (Elt Ideal)) (x2 : (⟨S1600000x3, .i32⟩ : BufTy).Contents (Elt Ideal))
    (x3 : (⟨S1600000, .f32⟩ : BufTy).Contents (Elt Ideal)) (x4 : (⟨S512x64, .f32⟩ : BufTy).Contents (Elt Ideal))
    (n : Fin 50000) (k : Fin 64) :
    Read.val_main_v26 (F := Ideal) x0 x2 x3 x4 (ix2 n k)
      = Ideal.ofBits .f32 0x00000000#32
        + Cert.Spec.rowSum (Read.val_main_v25 (F := Ideal) x2)
            (fun e => Cert.Spec.msg (Read.val_main_v12 (F := Ideal) x0 x2) (Read.val_main_v19 (F := Ideal) x2 x4) x3 e k) n := by
  unfold Read.val_main_v26
  refine (Cert.ScatterRows.scatterAdd_apply _ rfl rfl rfl rfl _ _ _ n k).trans ?_
  rw [Read.val_main_v24_apply, Read.val_main_cst_apply]
  unfold Cert.Spec.rowSum
  simp only [msg_at]
  rfl

/-- The second scatter at node `n`, feature `k`: zero plus the sum of the squared messages of the edges that
    point at `n` (its index column is the same column of targets as the first scatter's). -/
theorem sum2_at (x0 : (⟨S50000x64, .f32⟩ : BufTy).Contents (Elt Ideal)) (x2 : (⟨S1600000x3, .i32⟩ : BufTy).Contents (Elt Ideal))
    (x3 : (⟨S1600000, .f32⟩ : BufTy).Contents (Elt Ideal)) (x4 : (⟨S512x64, .f32⟩ : BufTy).Contents (Elt Ideal))
    (n : Fin 50000) (k : Fin 64) :
    Read.val_main_v31 (F := Ideal) x0 x2 x3 x4 (ix2 n k)
      = Ideal.ofBits .f32 0x00000000#32
        + Cert.Spec.rowSum (Read.val_main_v25 (F := Ideal) x2)
            (fun e => Cert.Spec.msg (Read.val_main_v12 (F := Ideal) x0 x2) (Read.val_main_v19 (F := Ideal) x2 x4) x3 e k
              * Cert.Spec.msg (Read.val_main_v12 (F := Ideal) x0 x2) (Read.val_main_v19 (F := Ideal) x2 x4) x3 e k) n := by
  unfold Read.val_main_v31
  refine (Cert.ScatterRows.scatterAdd_apply _ rfl rfl rfl rfl _ _ _ n k).trans ?_
  rw [Read.val_main_v29_apply, Read.val_main_cst_3_apply]
  unfold Cert.Spec.rowSum
  simp only [Read.val_main_v28_apply, msg_at]
  rfl

/-- The count, laid along the columns: at `(n, k)` the degree of `n` plus one. -/
theorem cnt_at (x2 : (⟨S1600000x3, .i32⟩ : BufTy).Contents (Elt Ideal)) (n : Fin 50000) (k : Fin 64) :
    Read.val_main_v41 (F := Ideal) x2 (ix2 n k)
      = Read.val_main_v37 (F := Ideal) x2 (ix1 n) + Ideal.ofBits .f32 0x3F800000#32 := by
  have h : Read.idx_main_v40 (Read.idx_main_v41 (ix2 n k)) = ix1 n :=
    funext fun a => Fin.ext (by match a with | ⟨0, _⟩ => rfl)
  rw [Read.val_main_v41_apply, Read.val_main_v40_apply, h, Read.val_main_v39_apply, Read.val_main_v38_apply,
    Read.val_main_cst_6_apply]
  rfl

/-- The same count as the program lays it a second time, for the mean of the messages. -/
theorem cnt_at' (x2 : (⟨S1600000x3, .i32⟩ : BufTy).Contents (Elt Ideal)) (n : Fin 50000) (k : Fin 64) :
    Read.val_main_v43 (F := Ideal) x2 (ix2 n k)
      = Read.val_main_v37 (F := Ideal) x2 (ix1 n) + Ideal.ofBits .f32 0x3F800000#32 := by
  have h : Read.idx_main_v40 (Read.idx_main_v43 (ix2 n k)) = ix1 n :=
    funext fun a => Fin.ext (by match a with | ⟨0, _⟩ => rfl)
  rw [Read.val_main_v43_apply, Read.val_main_v40_apply, h, Read.val_main_v39_apply, Read.val_main_v38_apply,
    Read.val_main_cst_6_apply]
  rfl

/-- The node update at `(n, k)`: with the boundary row as one more message, the mean of the squares minus the
    square of the mean, floored at `ε`, under the square root. -/
theorem upd_at (x0 x1 : (⟨S50000x64, .f32⟩ : BufTy).Contents (Elt Ideal)) (x2 : (⟨S1600000x3, .i32⟩ : BufTy).Contents (Elt Ideal))
    (x3 : (⟨S1600000, .f32⟩ : BufTy).Contents (Elt Ideal)) (x4 : (⟨S512x64, .f32⟩ : BufTy).Contents (Elt Ideal))
    (n : Fin 50000) (k : Fin 64) :
    Read.val_main_v48 (F := Ideal) x0 x1 x2 x3 x4 (ix2 n k)
      = Cert.Spec.upd
          (fun n k => Ideal.ofBits .f32 0x00000000#32
            + Cert.Spec.rowSum (Read.val_main_v25 (F := Ideal) x2)
                (fun e => Cert.Spec.msg (Read.val_main_v12 (F := Ideal) x0 x2) (Read.val_main_v19 (F := Ideal) x2 x4) x3 e k) n)
          (fun n k => Ideal.ofBits .f32 0x00000000#32
            + Cert.Spec.rowSum (Read.val_main_v25 (F := Ideal) x2)
                (fun e => Cert.Spec.msg (Read.val_main_v12 (F := Ideal) x0 x2) (Read.val_main_v19 (F := Ideal) x2 x4) x3 e k
                  * Cert.Spec.msg (Read.val_main_v12 (F := Ideal) x0 x2) (Read.val_main_v19 (F := Ideal) x2 x4) x3 e k) n)
          (fun n k => x1 (ix2 n k))
          (fun n => Read.val_main_v37 (F := Ideal) x2 (ix1 n) + Ideal.ofBits .f32 0x3F800000#32) n k := by
  rw [Read.val_main_v48_apply, Read.val_main_v47_apply, Read.val_main_call0_v1_apply, Read.val_main_call0_v0_apply,
    Read.val_main_cst_7_apply, Read.val_main_v46_apply, Read.val_main_v42_apply, Read.val_main_v45_apply,
    Read.val_main_v44_apply, Read.val_main_v33_apply, Read.val_main_v32_apply, Read.val_main_v27_apply,
    cnt_at, cnt_at', sum1_at, sum2_at]
  unfold Cert.Spec.upd
  simp only [Ideal.hostDivf_def, Ideal.hostUnary_sqrt_def, Ideal.maximumf_def, Ideal.mulf_def, Ideal.addf_def,
    Ideal.subf_def, Ideal.ofBits_def]

/-- The reference's result array is the specification's `out` of its gathered rows (`val_main_v12`, `val_main_v19`),
    the edge weights, its target column (`val_main_v25`), the boundary, its degree array (`val_main_v37`), the
    weight matrix and the bias. -/
theorem value (x0 x1 : (⟨S50000x64, .f32⟩ : BufTy).Contents (Elt Ideal)) (x2 : (⟨S1600000x3, .i32⟩ : BufTy).Contents (Elt Ideal))
    (x3 : (⟨S1600000, .f32⟩ : BufTy).Contents (Elt Ideal)) (x4 : (⟨S512x64, .f32⟩ : BufTy).Contents (Elt Ideal))
    (x5 : (⟨S64x64, .f32⟩ : BufTy).Contents (Elt Ideal)) (x6 : (⟨S64, .f32⟩ : BufTy).Contents (Elt Ideal)) :
    Read.val_main_v53 (F := Ideal) x0 x1 x2 x3 x4 x5 x6
      = Cert.Spec.out (Read.val_main_v12 (F := Ideal) x0 x2) (Read.val_main_v19 (F := Ideal) x2 x4) x3
          (Read.val_main_v25 (F := Ideal) x2) x1 (Read.val_main_v37 (F := Ideal) x2) x5 x6 := by
  funext i
  obtain ⟨n, j, rfl⟩ : ∃ (n : Fin 50000) (j : Fin 64), i = ix2 n j := ⟨i 0, i 1, eq_ix2 i⟩
  have hl : ∀ k : Fin 64, Read.lidx_main_v50 (ix2 n j) k = ix2 n k := fun k =>
    funext fun a => Fin.ext (by match a with | ⟨0, _⟩ => rfl | ⟨1, _⟩ => rfl)
  have hr : ∀ k : Fin 64, Read.idx_main_v49 (Read.ridx_main_v50 (ix2 n j) k) = ix2 j k := fun k =>
    funext fun a => Fin.ext (by match a with | ⟨0, _⟩ => rfl | ⟨1, _⟩ => rfl)
  have hb : Read.idx_main_v51 (Read.idx_main_v52 (ix2 n j)) = ix1 j :=
    funext fun a => Fin.ext (by match a with | ⟨0, _⟩ => rfl)
  rw [Read.val_main_v53_apply, Read.val_main_v50_apply, Read.val_main_v52_apply, Read.val_main_v51_apply, hb]
  simp only [Read.val_main_v49_apply, hl, hr, upd_at]
  rfl

end Cert.ReferenceIdeal.RefValue

end
-- ==== Proof.Bridge.lean ====
/-
  The two programs' primitive terms are the same functions of the argument arrays, where no id is negative.

  The kernel program hands the gather the raw source (and relation) ids, which the gather clamps; the
  reference first adds the table's height to a negative id.  Where every id is at least zero the reference's
  select keeps the id, so the two gathers read the same rows.  The target column and the degree array are the
  same terms in both programs.
-/
import proofs.«419630_j63290638074667_3_alg».proof.Proof.Gen.ReferenceIdeal.Read
import proofs.«419630_j63290638074667_3_alg».proof.Proof.HostK
import Idealize.ShloMosaic.Lib.Affine
import Idealize.ShloMosaic.Lib.ValueIdx

set_option maxRecDepth 16384

noncomputable section

namespace Cert.Bridge

open Idealize.ShloMosaic Idealize.ShloMosaic.ValueIdx
/-- A signed word that is at least zero is not below zero: the reference's select keeps it. -/
theorem select_keep (v w : BitVec 32) (h : 0 ≤ v.toInt) :
    Scalar.select (IntOp.cmpi .slt v 0#32) w v = v := by
  have hc : IntOp.cmpi .slt v 0#32 = 0#1 := by
    apply eq_zero_of_ne_one
    intro h1
    have := IntOp.cmpi_slt.1 h1
    have h0 : (0#32 : BitVec 32).toInt = 0 := by decide
    omega
  rw [hc, select_zero]

/-- The reference's wrapped source ids are the raw ids where none is negative. -/
theorem srcIds_eq (x2 : IVec Cert.ReferenceIdeal.S1600000x3 32)
    (h : ∀ e, 0 ≤ (Cert.ReferenceIdeal.Read.val_main_v1 (F := Ideal) x2 e).toInt) :
    Cert.ReferenceIdeal.Read.val_main_v10 (F := Ideal) x2 = Cert.ReferenceIdeal.Read.val_main_v1 (F := Ideal) x2 := by
  funext e
  rw [Cert.ReferenceIdeal.Read.val_main_v10_apply, Cert.ReferenceIdeal.Read.val_main_v7_apply]
  exact select_keep _ _ (h e)

/-- The same for the relation ids. -/
theorem relIds_eq (x2 : IVec Cert.ReferenceIdeal.S1600000x3 32)
    (h : ∀ e, 0 ≤ (Cert.ReferenceIdeal.Read.val_main_v5 (F := Ideal) x2 e).toInt) :
    Cert.ReferenceIdeal.Read.val_main_v17 (F := Ideal) x2 = Cert.ReferenceIdeal.Read.val_main_v5 (F := Ideal) x2 := by
  funext e
  rw [Cert.ReferenceIdeal.Read.val_main_v17_apply, Cert.ReferenceIdeal.Read.val_main_v14_apply]
  exact select_keep _ _ (h e)

/-- The gathered source rows agree. -/
theorem gA_eq (x0 : FVec Ideal Cert.ReferenceIdeal.S50000x64 .f32) (x2 : IVec Cert.ReferenceIdeal.S1600000x3 32)
    (h : ∀ e, 0 ≤ (Cert.ReferenceIdeal.Read.val_main_v1 (F := Ideal) x2 e).toInt) :
    Cert.ReferenceIdeal.Read.val_main_v12 (F := Ideal) x0 x2 = Cert.KernelIdeal.HostK.gA x0 x2 := by
  unfold Cert.ReferenceIdeal.Read.val_main_v12 Cert.ReferenceIdeal.Read.val_main_v11
  rw [srcIds_eq x2 h]
  rfl

/-- The gathered relation rows agree. -/
theorem gR_eq (x4 : FVec Ideal Cert.ReferenceIdeal.S512x64 .f32) (x2 : IVec Cert.ReferenceIdeal.S1600000x3 32)
    (h : ∀ e, 0 ≤ (Cert.ReferenceIdeal.Read.val_main_v5 (F := Ideal) x2 e).toInt) :
    Cert.ReferenceIdeal.Read.val_main_v19 (F := Ideal) x2 x4 = Cert.KernelIdeal.HostK.gR x4 x2 := by
  unfold Cert.ReferenceIdeal.Read.val_main_v19 Cert.ReferenceIdeal.Read.val_main_v18
  rw [relIds_eq x2 h]
  rfl

/-- The target column is the same term. -/
theorem outCol_eq (x2 : IVec Cert.ReferenceIdeal.S1600000x3 32) :
    Cert.ReferenceIdeal.Read.val_main_v25 (F := Ideal) x2 = Cert.KernelIdeal.HostK.outCol x2 := rfl

/-- The degree array is the same term. -/
theorem deg_eq (x2 : IVec Cert.ReferenceIdeal.S1600000x3 32) :
    Cert.ReferenceIdeal.Read.val_main_v37 (F := Ideal) x2 = Cert.KernelIdeal.HostK.degK (F := Ideal) x2 := rfl

end Cert.Bridge

end
-- ==== Proof.Pre.lean ====
/-
  What the precondition says of the edge list: every source id (column 0) and every relation id (column 2), read
  as a signed integer, is at least zero.  (The other conjuncts, the finiteness of the float inputs, are not
  needed by the proof: the two programs differ only in how a negative id is read.)
-/
import proofs.«419630_j63290638074667_3_alg».proof.Proof.Gen.Pre_finite_inputs
import Idealize.ShloMosaic.Lib.ReduceAll
import Idealize.ShloMosaic.Lib.Affine
import Idealize.ShloMosaic.Lib.ValueIdx

noncomputable section

namespace Cert.PreFacts

open Cert.Pre_finite_inputs Cert.Pre_finite_inputs.Gen Idealize.ShloMosaic

variable {F : FTy → Type} [FloatOps F]

instance : Subsingleton S_.Idx := ⟨fun a b => funext fun d => d.elim0⟩

/-- Column `col` of the edge list as a vector over the edges. -/
def colVec (col : Fin 2 → Nat) (h : S1600000x3.Slices col S1600000x1) (x2 : IVec S1600000x3 32) : IVec S1600000 32 :=
  shapeCast S1600000 (extractStridedSlice S1600000x1 col x2 h) shapeCasts_S1600000x1_S1600000

/-- Under the precondition every entry of columns 0 and 2 of the edge list is non-negative. -/
theorem nonneg_of_fn (x0 x1 : FVec F S50000x64 .f32) (x2 : IVec S1600000x3 32) (x3 : FVec F S1600000 .f32)
    (x4 : FVec F S512x64 .f32) (x5 : FVec F S64x64 .f32) (x6 : FVec F S64 .f32)
    (h : fn (F := F) x0 x1 x2 x3 x4 x5 x6 = fun _ => 1#1) :
    (∀ e : S1600000.Idx, 0 ≤ (colVec ![0, 0] slices_S1600000x3_S1600000x1_0_0 x2 e).toInt)
    ∧ (∀ e : S1600000.Idx, 0 ≤ (colVec ![0, 2] slices_S1600000x3_S1600000x1_0_2 x2 e).toInt) := by
  have h0 := congrFun h ValueIdx.ix0
  dsimp only [fn, fn_part1, fn_part2] at h0
  obtain ⟨h1, h39⟩ := IntOp.andi_eq_one.1 h0
  obtain ⟨-, h33⟩ := IntOp.andi_eq_one.1 h1
  refine ⟨fun e => ?_, fun e => ?_⟩
  · have := IntOp.cmpi_sge.1 (Host.reduce_andi_all _ _ _ _ _ h33 e)
    exact this
  · have := IntOp.cmpi_sge.1 (Host.reduce_andi_all _ _ _ _ _ h39 e)
    exact this

end Cert.PreFacts

end
-- ==== Proof.lean ====
/-
  The kernel against its reference, over the extended reals.

  Both programs form, for every edge, the message `x[src] · rel[r] · w`, sum the messages and their squares into
  the edge's target node, and from those sums, the boundary row and the degree form the update
  `sqrt (max ε (E[m²] − E[m]²))`, which a 64 × 64 linear layer finishes.  The kernel program forms the message and
  its square side by side in one 128-lane array in a first kernel, scatter-adds that array once, and finishes in
  a second kernel; the reference scatter-adds the message and its square separately and finishes on the host.
  Read at an index a row scatter-add is a sum over the edges that point at the node, lane for lane, so one
  128-lane scatter is the two 64-lane ones; the casts to bf16 around the kernel's matrix product are the
  identity here and the product into a zero accumulator is the plain sum the reference's is; `(x · w) · rel` is
  `x · rel · w`.  No step needs the inputs to be finite.

  The one place the programs differ is a negative id: the reference adds the table's height to it before it
  gathers, the kernel program lets the gather clamp it to row 0.  The statement's precondition therefore
  asks, beside finiteness, that every source id and every relation id be at least zero; where that holds the
  reference's select keeps the id and the two gathers read the same rows.

  `frame_Kernel` and `frame_KernelIdeal` are the generated frame certificates; the reference's frame is its
  generated run with the result dropped; `preserves` is trivial (the ideal pass rewrote nothing).
-/
import proofs.«419630_j63290638074667_3_alg».proof.Defs
import proofs.«419630_j63290638074667_3_alg».proof.Proof.Gen.Kernel
import proofs.«419630_j63290638074667_3_alg».proof.Proof.Gen.Kernel.Skeleton
import proofs.«419630_j63290638074667_3_alg».proof.Proof.Gen.Kernel.Launch
import proofs.«419630_j63290638074667_3_alg».proof.Proof.Gen.Kernel.Points
import proofs.«419630_j63290638074667_3_alg».proof.Proof.Gen.Kernel.Frame
import proofs.«419630_j63290638074667_3_alg».proof.Proof.Gen.KernelIdeal
import proofs.«419630_j63290638074667_3_alg».proof.Proof.Gen.KernelIdeal.Skeleton
import proofs.«419630_j63290638074667_3_alg».proof.Proof.Gen.KernelIdeal.Launch
import proofs.«419630_j63290638074667_3_alg».proof.Proof.Gen.KernelIdeal.Points
import proofs.«419630_j63290638074667_3_alg».proof.Proof.Gen.KernelIdeal.Frame
import proofs.«419630_j63290638074667_3_alg».proof.Proof.Gen.ReferenceIdeal
import proofs.«419630_j63290638074667_3_alg».proof.Proof.Gen.ReferenceIdeal.Run
import proofs.«419630_j63290638074667_3_alg».proof.Proof.Gen.ReferenceIdeal.Read
import proofs.«419630_j63290638074667_3_alg».proof.Proof.Gen.Pre_finite_inputs
import proofs.«419630_j63290638074667_3_alg».proof.Proof.KernelRun
import proofs.«419630_j63290638074667_3_alg».proof.Proof.KValue
import proofs.«419630_j63290638074667_3_alg».proof.Proof.RefValue
import proofs.«419630_j63290638074667_3_alg».proof.Proof.Bridge
import proofs.«419630_j63290638074667_3_alg».proof.Proof.Pre
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's `out` of the gathered rows, the edge weights, the target column,
    the boundary, the degrees, the weight matrix and the bias — the kernel program's by its two regions read
    index by index, the reference's by its run read one operation at a time —, and under the precondition the two
    programs' gathered rows are the same. -/
theorem algebraic : Cert.algebraic_KernelIdeal_ReferenceIdeal := by
  intro m ρ m' ρ' hpre hagree
  refine ⟨fun c => Cert.Spec.out
      (Cert.KernelIdeal.HostK.gA (Cert.KernelIdeal.HostK.a0 m c) (Cert.KernelIdeal.HostK.a2 m c))
      (Cert.KernelIdeal.HostK.gR (Cert.KernelIdeal.HostK.a4 m c) (Cert.KernelIdeal.HostK.a2 m c))
      (Cert.KernelIdeal.HostK.a3 m c) (Cert.KernelIdeal.HostK.outCol (Cert.KernelIdeal.HostK.a2 m c))
      (Cert.KernelIdeal.HostK.a1 m c) (Cert.KernelIdeal.HostK.degK (F := Ideal) (Cert.KernelIdeal.HostK.a2 m c))
      (Cert.KernelIdeal.HostK.a5 m c) (Cert.KernelIdeal.HostK.a6 m c), ?_, ?_⟩
  · exact (θ_run Cert.KernelIdeal.defs _ _).mono
      (fun r h c => ⟨(h c).1.trans (Cert.KernelIdeal.KValue.value m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h2⟩ := Cert.PreFacts.nonneg_of_fn _ _ _ _ _ _ _ (hpre c)
    obtain ⟨e0, e1, e2, e3, e4, e5, e6⟩ := hagree c
    rw [Cert.ReferenceIdeal.Read.val_main_v53_eq, Cert.ReferenceIdeal.RefValue.value, e0, e1, e2, e3, e4, e5, e6,
      Cert.Bridge.gA_eq _ _ (fun e => h0 e), Cert.Bridge.gR_eq _ _ (fun e => h2 e), Cert.Bridge.outCol_eq,
      Cert.Bridge.deg_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
